-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2x1024x1024 : Shape := ⟨4, ![16, 2, 1024, 1024]⟩
abbrev S16x1024x1024 : Shape := ⟨3, ![16, 1024, 1024]⟩
abbrev S_ : Shape := ⟨0, ![]⟩

class Facts : Prop where
  bcast_S_S16x2x1024x1024 : S_.BroadcastsInDim S16x2x1024x1024 (![] : Fin 0 → Fin S16x2x1024x1024.rank)
  reducesTo_S16x2x1024x1024_S_d0_1_2_3 : S16x2x1024x1024.ReducesTo [0, 1, 2, 3] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_

variable [Facts]

def fn {F : FTy → Type} [FloatOps F] (main_arg0 : FVec F S16x2x1024x1024 .f32) (main_arg1 : IVec S16x1024x1024 32) : IVec S_ 1 :=
  let main_v0 : FVec F S16x2x1024x1024 .f32 := Host.absf main_arg0
  let main_cst : FVec F S_ .f32 := constant S_ .f32 0x7F800000#32
  let main_v1 : FVec F S16x2x1024x1024 .f32 := broadcastInDim S16x2x1024x1024 ![] bcast_S_S16x2x1024x1024 main_cst
  let main_v2 : IVec S16x2x1024x1024 1 := cmpf .olt main_v0 main_v1
  let main_c : IVec S_ 1 := constantI S_ 1 1#1
  let main_v3 : IVec S_ 1 := (fun x v => Host.reduce IntOp.andi x v reducesTo_S16x2x1024x1024_S_d0_1_2_3 h_S_) main_v2 main_c
  let main_c_0 : IVec S_ 32 := constantI S_ 32 0#32
  let main_v4 : IVec S16x1024x1024 32 := broadcastInDim S16x1024x1024 ![] bcast_S_S16x1024x1024 main_c_0
  let main_v5 : IVec S16x1024x1024 1 := cmpi .eq main_arg1 main_v4
  let main_c_1 : IVec S_ 32 := constantI S_ 32 1#32
  let main_v6 : IVec S16x1024x1024 32 := broadcastInDim S16x1024x1024 ![] bcast_S_S16x1024x1024 main_c_1
  let main_v7 : IVec S16x1024x1024 1 := cmpi .eq main_arg1 main_v6
  let main_v8 : IVec S16x1024x1024 1 := ori main_v5 main_v7
  let main_c_2 : IVec S_ 32 := constantI S_ 32 255#32
  let main_v9 : IVec S16x1024x1024 32 := broadcastInDim S16x1024x1024 ![] bcast_S_S16x1024x1024 main_c_2
  let main_v10 : IVec S16x1024x1024 1 := cmpi .eq main_arg1 main_v9
  let main_v11 : IVec S16x1024x1024 1 := ori main_v8 main_v10
  let main_c_3 : IVec S_ 1 := constantI S_ 1 1#1
  let main_v12 : IVec S_ 1 := (fun x v => Host.reduce IntOp.andi x v reducesTo_S16x1024x1024_S_d0_1_2 h_S_) main_v11 main_c_3
  let main_v13 : IVec S_ 1 := andi main_v3 main_v12
  main_v13
-- ==== Kernel.lean ====
abbrev S16x2x1024x1024 : Shape := ⟨4, ![16, 2, 1024, 1024]⟩
abbrev S16x1024x1024 : Shape := ⟨3, ![16, 1024, 1024]⟩
abbrev S16x1x128 : Shape := ⟨3, ![16, 1, 128]⟩
abbrev S1x2x1024x1024 : Shape := ⟨4, ![1, 2, 1024, 1024]⟩
abbrev S1x1024x1024 : Shape := ⟨3, ![1, 1024, 1024]⟩
abbrev S1x1x128 : Shape := ⟨3, ![1, 1, 128]⟩
abbrev S2x1024x1024 : Shape := ⟨3, ![2, 1024, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S1x128 : Shape := ⟨2, ![1, 128]⟩
abbrev S16x1x1 : Shape := ⟨3, ![16, 1, 1]⟩
abbrev S16 : Shape := ⟨1, ![16]⟩
abbrev S_ : Shape := ⟨0, ![]⟩

abbrev nBuf : Space → Nat
  | .hbm => 24
  | .vmem => 10
  | .smem => 0
  | _ => 0

abbrev bufTy : (tb : Table) → Fin (tcTables nBuf tb) → BufTy
  | .hbm, ⟨0, _⟩ => ⟨S16x2x1024x1024, .f32⟩
  | .hbm, ⟨1, _⟩ => ⟨S16x1024x1024, .i32⟩
  | .hbm, ⟨2, _⟩ => ⟨S16x1x128, .f32⟩
  | .hbm, ⟨3, _⟩ => ⟨S16x1x128, .f32⟩
  | .hbm, ⟨4, _⟩ => ⟨S16x1x128, .f32⟩
  | .hbm, ⟨5, _⟩ => ⟨S16x1x1, .f32⟩
  | .hbm, ⟨6, _⟩ => ⟨S16, .f32⟩
  | .hbm, ⟨7, _⟩ => ⟨S_, .f32⟩
  | .hbm, ⟨8, _⟩ => ⟨S_, .f32⟩
  | .hbm, ⟨9, _⟩ => ⟨S16x1x1, .f32⟩
  | .hbm, ⟨10, _⟩ => ⟨S16, .f32⟩
  | .hbm, ⟨11, _⟩ => ⟨S_, .f32⟩
  | .hbm, ⟨12, _⟩ => ⟨S_, .f32⟩
  | .hbm, ⟨13, _⟩ => ⟨S16x1x1, .f32⟩
  | .hbm, ⟨14, _⟩ => ⟨S16, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S1x2x1024x1024, .f32⟩
  | .local _ .vmem, ⟨1, _⟩ => ⟨S1x2x1024x1024, .f32⟩
  | .local _ .vmem, ⟨2, _⟩ => ⟨S1x1024x1024, .i32⟩
  | .local _ .vmem, ⟨3, _⟩ => ⟨S1x1024x1024, .i32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | _, _ => ⟨S16x2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x2x1024x1024_S1x2x1024x1024_0_0_0_0 : ∀ a, (![0, 0, 0, 0] : Fin 4 → Nat) a + S1x2x1024x1024.size a ≤ S1x2x1024x1024.size a
  h_S1x2x1024x1024 : 0 < S1x2x1024x1024.numel
  shapeCasts_S1x2x1024x1024_S2x1024x1024 : S1x2x1024x1024.ShapeCasts S2x1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  slices_S2x1024x1024_o0_0_0_S1x1024x1024 : S2x1024x1024.Slices ![0, 0, 0] S1x1024x1024
  slices_S2x1024x1024_o1_0_0_S1x1024x1024 : S2x1024x1024.Slices ![1, 0, 0] S1x1024x1024
  natLt_1_32 : 1 < 32
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  rotates_S1024x1024_d1 : S1024x1024.Rotates 1 none
  iota_S1024x1024_d1_w32 : S1024x1024.Iotas .tc 32 [1]
  rotates_S1024x1024_d0 : S1024x1024.Rotates 0 none
  iota_S1024x1024_d0_w32 : S1024x1024.Iotas .tc 32 [0]
  shapeCasts_S1x1_S1x1 : S1x1.ShapeCasts S1x1
  broadcasts_S1x1_S1x128 : S1x1.Broadcasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x1024x1024.size a ≤ S16x2x1024x1024.size a
  hwx0_0 : ∀ i : grid0.Coords, EltTy.bits .f32 = 32 ∨ (Rect.block (s := S16x2x1024x1024) S1x2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .i32 = 32 ∨ (Rect.block (s := S16x1024x1024) S1x1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S16x1x128.size a
  hwx0_3 : ∀ i : grid0.Coords, EltTy.bits .f32 = 32 ∨ (Rect.block (s := S16x1x128) S1x1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S16x1x128.size a
  hwx0_4 : ∀ i : grid0.Coords, EltTy.bits .f32 = 32 ∨ (Rect.block (s := S16x1x128) S1x1x128.size (cc0_transform_4 i) (hinb0_4 i)).WholeWords (EltTy.packing .f32)

variable [Facts₀]

abbrev win0_0 : Pipeline.Window sig grid0 :=
  Pipeline.Window.ofSpec (Memref.whole main_arg0) S1x2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2x1024x1024 : Shape := ⟨4, ![16, 2, 1024, 1024]⟩
abbrev S16x1024x1024 : Shape := ⟨3, ![16, 1024, 1024]⟩
abbrev S_ : Shape := ⟨0, ![]⟩
abbrev S16x1x1024x1024 : Shape := ⟨4, ![16, 1, 1024, 1024]⟩
abbrev S16x1x1024x1024x1 : Shape := ⟨5, ![16, 1, 1024, 1024, 1]⟩
abbrev S1 : Shape := ⟨1, ![1]⟩
abbrev S1x1x1x1x1 : Shape := ⟨5, ![1, 1, 1, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S16x2x1024x1024, .f32⟩
  | .hbm, ⟨1, _⟩ => ⟨S16x1024x1024, .i32⟩
  | .hbm, ⟨2, _⟩ => ⟨S_, .i32⟩
  | .hbm, ⟨3, _⟩ => ⟨S16x1024x1024, .i32⟩
  | .hbm, ⟨4, _⟩ => ⟨S16x1024x1024, .i1⟩
  | .hbm, ⟨5, _⟩ => ⟨S_, .i32⟩
  | .hbm, ⟨6, _⟩ => ⟨S_, .i32⟩
  | .hbm, ⟨7, _⟩ => ⟨S16x1024x1024, .i32⟩
  | .hbm, ⟨8, _⟩ => ⟨S16x1024x1024, .i32⟩
  | .hbm, ⟨9, _⟩ => ⟨S_, .f32⟩
  | .hbm, ⟨10, _⟩ => ⟨S16x1024x1024, .f32⟩
  | .hbm, ⟨11, _⟩ => ⟨S_, .f32⟩
  | .hbm, ⟨12, _⟩ => ⟨S16x1024x1024, .f32⟩
  | .hbm, ⟨13, _⟩ => ⟨S16x1024x1024, .f32⟩
  | .hbm, ⟨14, _⟩ => ⟨S16x1x1024x1024, .f32⟩
  | .hbm, ⟨15, _⟩ => ⟨S16x2x1024x1024, .f32⟩
  | .hbm, ⟨16, _⟩ => ⟨S16x2x1024x1024, .f32⟩
  | .hbm, ⟨17, _⟩ => ⟨S16x2x1024x1024, .f32⟩
  | .hbm, ⟨18, _⟩ => ⟨S_, .f32⟩
  | .hbm, ⟨19, _⟩ => ⟨S16x1024x1024, .f32⟩
  | .hbm, ⟨20, _⟩ => ⟨S16x1x1024x1024, .f32⟩
  | .hbm, ⟨21, _⟩ => ⟨S16x1x1024x1024, .f32⟩
  | .hbm, ⟨22, _⟩ => ⟨S16x2x1024x1024, .f32⟩
  | .hbm, ⟨23, _⟩ => ⟨S16x2x1024x1024, .f32⟩
  | .hbm, ⟨24, _⟩ => ⟨S16x1x1024x1024, .i32⟩
  | .hbm, ⟨25, _⟩ => ⟨S_, .i32⟩
  | .hbm, ⟨26, _⟩ => ⟨S16x1x1024x1024, .i32⟩
  | .hbm, ⟨27, _⟩ => ⟨S16x1x1024x1024, .i1⟩
  | .hbm, ⟨28, _⟩ => ⟨S_, .i32⟩
  | .hbm, ⟨29, _⟩ => ⟨S16x1x1024x1024, .i32⟩
  | .hbm, ⟨30, _⟩ => ⟨S16x1x1024x1024, .i32⟩
  | .hbm, ⟨31, _⟩ => ⟨S16x1x1024x1024, .i32⟩
  | .hbm, ⟨32, _⟩ => ⟨S16x1x1024x1024x1, .i32⟩
  | .hbm, ⟨33, _⟩ => ⟨S1, .i32⟩
  | .hbm, ⟨34, _⟩ => ⟨S_, .i32⟩
  | .hbm, ⟨35, _⟩ => ⟨S16x1x1024x1024x1, .i32⟩
  | .hbm, ⟨36, _⟩ => ⟨S16x1x1024x1024x1, .i1⟩
  | .hbm, ⟨37, _⟩ => ⟨S1x1x1x1x1, .i32⟩
  | .hbm, ⟨38, _⟩ => ⟨S16x1x1024x1024x1, .i32⟩
  | .hbm, ⟨39, _⟩ => ⟨S16x1x1024x1024x1, .i1⟩
  | .hbm, ⟨40, _⟩ => ⟨S16x1x1024x1024x1, .i1⟩
  | .hbm, ⟨41, _⟩ => ⟨S_, .i1⟩
  | .hbm, ⟨42, _⟩ => ⟨S16x1x1024x1024, .i1⟩
  | .hbm, ⟨43, _⟩ => ⟨S16x1x1024x1024, .f32⟩
  | .hbm, ⟨44, _⟩ => ⟨S_, .f32⟩
  | .hbm, ⟨45, _⟩ => ⟨S16x1x1024x1024, .f32⟩
  | .hbm, ⟨46, _⟩ => ⟨S16x1x1024x1024, .f32⟩
  | .hbm, ⟨47, _⟩ => ⟨S16x1024x1024, .f32⟩
  | .hbm, ⟨48, _⟩ => ⟨S16x1024x1024, .f32⟩
  | .hbm, ⟨49, _⟩ => ⟨S16x1024x1024, .f32⟩
  | .hbm, ⟨50, _⟩ => ⟨S_, .f32⟩
  | .hbm, ⟨51, _⟩ => ⟨S_, .f32⟩
  | .hbm, ⟨52, _⟩ => ⟨S16x1024x1024, .f32⟩
  | .hbm, ⟨53, _⟩ => ⟨S16x1024x1024, .f32⟩
  | .hbm, ⟨54, _⟩ => ⟨S_, .f32⟩
  | .hbm, ⟨55, _⟩ => ⟨S16x1024x1024, .f32⟩
  | .hbm, ⟨56, _⟩ => ⟨S16x1024x1024, .f32⟩
  | .hbm, ⟨57, _⟩ => ⟨S_, .f32⟩
  | .hbm, ⟨58, _⟩ => ⟨S16x1024x1024, .f32⟩
  | .hbm, ⟨59, _⟩ => ⟨S16x1024x1024, .f32⟩
  | .hbm, ⟨60, _⟩ => ⟨S16x1024x1024, .f32⟩
  | .hbm, ⟨61, _⟩ => ⟨S16x1024x1024, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .i32⟩
  | .hbm, ⟨66, _⟩ => ⟨S16x1024x1024, .i32⟩
  | .hbm, ⟨67, _⟩ => ⟨S16x1024x1024, .i1⟩
  | .hbm, ⟨68, _⟩ => ⟨S16x1024x1024, .f32⟩
  | .hbm, ⟨69, _⟩ => ⟨S_, .f32⟩
  | .hbm, ⟨70, _⟩ => ⟨S_, .f32⟩
  | .hbm, ⟨71, _⟩ => ⟨S16x1024x1024, .f32⟩
  | .hbm, ⟨72, _⟩ => ⟨S_, .f32⟩
  | .hbm, ⟨73, _⟩ => ⟨S_, .f32⟩
  | .hbm, ⟨74, _⟩ => ⟨S16x1024x1024, .f32⟩
  | .hbm, ⟨75, _⟩ => ⟨S16x1024x1024, .f32⟩
  | .hbm, ⟨76, _⟩ => ⟨S_, .f32⟩
  | .hbm, ⟨77, _⟩ => ⟨S16x1024x1024, .f32⟩
  | .hbm, ⟨78, _⟩ => ⟨S16x1024x1024, .f32⟩
  | .hbm, ⟨79, _⟩ => ⟨S_, .f32⟩
  | .hbm, ⟨80, _⟩ => ⟨S16x1024x1024, .f32⟩
  | .hbm, ⟨81, _⟩ => ⟨S16x1024x1024, .f32⟩
  | .hbm, ⟨82, _⟩ => ⟨S16x1024x1024, .f32⟩
  | .hbm, ⟨83, _⟩ => ⟨S16x1024x1024, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S16x2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_call1_cst : Ref sig .tc := ⟨.hbm, 9, rfl⟩
abbrev main_call1_v0 : Ref sig .tc := ⟨.hbm, 10, rfl⟩
abbrev main_call1_cst_0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_cst_1 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_v3 : Ref sig .tc := ⟨.hbm, 23, rfl⟩
abbrev main_v4 : Ref sig .tc := ⟨.hbm, 24, rfl⟩
abbrev main_call2_c : Ref sig .tc := ⟨.hbm, 25, rfl⟩
abbrev main_call2_v0 : Ref sig .tc := ⟨.hbm, 26, rfl⟩
abbrev main_call2_v1 : Ref sig .tc := ⟨.hbm, 27, rfl⟩
abbrev main_call2_c_0 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_c_2 : Ref sig .tc := ⟨.hbm, 34, rfl⟩
abbrev main_call2_v6 : Ref sig .tc := ⟨.hbm, 35, rfl⟩
abbrev main_call2_v7 : Ref sig .tc := ⟨.hbm, 36, rfl⟩
abbrev main_call2_v8 : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_3 : Ref sig .tc := ⟨.hbm, 41, rfl⟩
abbrev main_call2_v12 : Ref sig .tc := ⟨.hbm, 42, rfl⟩
abbrev main_call2_v13 : Ref sig .tc := ⟨.hbm, 43, rfl⟩
abbrev main_call2_cst : Ref sig .tc := ⟨.hbm, 44, rfl⟩
abbrev main_call2_v14 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_cst : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_cst_1 : Ref sig .tc := ⟨.hbm, 54, rfl⟩
abbrev main_v12 : Ref sig .tc := ⟨.hbm, 55, rfl⟩
abbrev main_v13 : Ref sig .tc := ⟨.hbm, 56, rfl⟩
abbrev main_cst_2 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst_3 : Ref sig .tc := ⟨.hbm, 62, rfl⟩
abbrev main_v18 : Ref sig .tc := ⟨.hbm, 63, rfl⟩
abbrev main_v19 : Ref sig .tc := ⟨.hbm, 64, rfl⟩
abbrev main_c_4 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_5 : Ref sig .tc := ⟨.hbm, 69, rfl⟩
abbrev main_v23 : Ref sig .tc := ⟨.hbm, 70, rfl⟩
abbrev main_v24 : Ref sig .tc := ⟨.hbm, 71, rfl⟩
abbrev main_cst_6 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_cst_7 : Ref sig .tc := ⟨.hbm, 76, rfl⟩
abbrev main_v28 : Ref sig .tc := ⟨.hbm, 77, rfl⟩
abbrev main_v29 : Ref sig .tc := ⟨.hbm, 78, rfl⟩
abbrev main_cst_8 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_cst_9 : Ref sig .tc := ⟨.hbm, 84, rfl⟩
abbrev main_v34 : Ref sig .tc := ⟨.hbm, 85, rfl⟩
abbrev main_v35 : Ref sig .tc := ⟨.hbm, 86, rfl⟩
abbrev main_cst_10 : Ref sig .tc := ⟨.hbm, 87, rfl⟩
abbrev main_v36 : Ref sig .tc := ⟨.hbm, 88, rfl⟩
abbrev main_cst_11 : Ref sig .tc := ⟨.hbm, 89, rfl⟩
abbrev main_v37 : Ref sig .tc := ⟨.hbm, 90, rfl⟩
abbrev main_v38 : Ref sig .tc := ⟨.hbm, 91, rfl⟩

abbrev nD : Nat := 1
abbrev τ : Topo := Topo.v7x

variable {F : FTy → Type} [FloatOps F]

class Facts₀ : Prop where
  bcast_S_S16x1024x1024 : S_.BroadcastsInDim S16x1024x1024 (![] : Fin 0 → Fin S16x1024x1024.rank)
  reducesTo_S16x2x1024x1024_S16x1024x1024_d1 : S16x2x1024x1024.ReducesTo [1] S16x1024x1024
  h_S_ : 0 < S_.numel
  bcast_S16x1024x1024_S16x1x1024x1024_0_2_3 : S16x1024x1024.BroadcastsInDim S16x1x1024x1024 (![0, 2, 3] : Fin 3 → Fin S16x1x1024x1024.rank)
  bcast_S16x1x1024x1024_S16x2x1024x1024_0_1_2_3 : S16x1x1024x1024.BroadcastsInDim S16x2x1024x1024 (![0, 1, 2, 3] : Fin 4 → Fin S16x2x1024x1024.rank)
  bcast_S_S16x1x1024x1024 : S_.BroadcastsInDim S16x1x1024x1024 (![] : Fin 0 → Fin S16x1x1024x1024.rank)
  shapeCasts_S16x1x1024x1024_S16x1x1024x1024x1 : S16x1x1024x1024.ShapeCasts S16x1x1024x1024x1
  bcast_S_S16x1x1024x1024x1 : S_.BroadcastsInDim S16x1x1024x1024x1 (![] : Fin 0 → Fin S16x1x1024x1024x1.rank)
  bcast_S1_S1x1x1x1x1_4 : S1.BroadcastsInDim S1x1x1x1x1 (![4] : Fin 1 → Fin S1x1x1x1x1.rank)
  bcast_S1x1x1x1x1_S16x1x1024x1024x1_0_1_2_3_4 : S1x1x1x1x1.BroadcastsInDim S16x1x1024x1024x1 (![0, 1, 2, 3, 4] : Fin 5 → Fin S16x1x1024x1024x1.rank)
  reducesTo_S16x1x1024x1024x1_S16x1x1024x1024_d4 : S16x1x1024x1024x1.ReducesTo [4] S16x1x1024x1024
  shapeCasts_S16x1x1024x1024_S16x1024x1024 : S16x1x1024x1024.ShapeCasts S16x1024x1024
  reducesTo_S16x1024x1024_S_d0_1_2 : S16x1024x1024.ReducesTo [0, 1, 2] S_
  bcast_S_S_ : S_.BroadcastsInDim S_ (![] : Fin 0 → Fin S_.rank)
  reduceWindows_S16x1024x1024_S16x1024x1024_w1s1p0_0_w5s1p2_2_w5s1p2_2 : S16x1024x1024.ReduceWindows (![1, 5, 5] : Fin 3 → Nat) ![1, 1, 1] ![0, 2, 2] ![0, 2, 2] S16x1024x1024
  gather_S16x2x1024x1024_S16x1x1024x1024x1_S16x1x1024x1024_n_1_023_023_1_4_1111_wf : GatherDims.WF S16x2x1024x1024 S16x1x1024x1024x1 S16x1x1024x1024 [] [1] [0, 2, 3] [1] [0, 2, 3] 4 ![1, 1, 1, 1]

variable [Facts₀]

def gather_S16x2x1024x1024_S16x1x1024x1024x1_S16x1x1024x1024_n_1_023_023_1_4_1111 : GatherDims S16x2x1024x1024 S16x1x1024x1024x1 S16x1x1024x1024 where
  offsetDims := []
  collapsedSliceDims := [1]
  operandBatchingDims := [0, 2, 3]
  startIndicesBatchingDims := [0, 2, 3]
  startIndexMap := [1]
  indexVectorDim := 4
  sliceSizes := ![1, 1, 1, 1]
  wf := gather_S16x2x1024x1024_S16x1x1024x1024x1_S16x1x1024x1024_n_1_023_023_1_4_1111_wf

class Facts : Prop extends Facts₀ where

variable [Facts]
-- ==== Proof.PreFacts.lean ====
/- What the precondition says of the inputs: every logit is a real number, every label is 0, 1 or 255. -/
import proofs.«414771_j81527069213369_2_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

open Idealize.ShloMosaic Idealize.ShloMosaic.ValueIdx Idealize.SL.Sem
open scoped BigOperators

namespace Cert.PreFacts

/-- The result of a reduction over every axis has a single index. -/
instance : Subsingleton Cert.Pre_finite_inputs.S_.Idx := ⟨fun a b => funext fun d => d.elim0⟩

/-- An extended real whose absolute value, the larger of itself and its negation, lies strictly below the top is a real
    number: at the bottom the negation is the top, and at the top the value itself is. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The word the logits' magnitudes are compared against denotes the top. -/
theorem inf_word : Ideal.ofBits .f32 0x7F800000#32 = (⊤ : EReal) := by simp [Ideal.ofBits, Ideal.ieee]

theorem of_pre [Cert.Pre_finite_inputs.Facts] (X : FVec Ideal Cert.Pre_finite_inputs.S16x2x1024x1024 .f32) (T : IVec Cert.Pre_finite_inputs.S16x1024x1024 32)
    (h : Cert.Pre_finite_inputs.fn (F := Ideal) X T = fun _ => 1#1) :
    (∀ i, ∃ r : ℝ, X i = (r : EReal)) ∧ (∀ j, T j = 0#32 ∨ T j = 1#32 ∨ T j = 255#32) := by
  have e := congrFun h ValueIdx.ix0
  dsimp only [Cert.Pre_finite_inputs.fn] at e
  obtain ⟨e1, e2⟩ := IntOp.andi_eq_one.1 e
  refine ⟨fun i => ?_, fun j => ?_⟩
  · -- the conjunction over every logit holds, so it holds at this one: its magnitude is below the top
    have hi : Ideal.cmp .olt (max (X i) (-(X i))) (Ideal.ofBits .f32 0x7F800000#32) = 1#1 :=
      Host.reduce_andi_all _ _ _ _ _ e1 i
    rw [inf_word] at hi
    exact real_of_abs_lt_top _ hi
  · -- the conjunction over every label holds, so at this one some one of the three equalities does
    have hj : IntOp.ori (IntOp.ori (IntOp.cmpi .eq (T j) 0#32) (IntOp.cmpi .eq (T j) 1#32)) (IntOp.cmpi .eq (T j) 255#32) = 1#1 :=
      Host.reduce_andi_all _ _ _ _ _ e2 j
    rcases IntOp.ori_eq_one.1 hj with h01 | h255
    · rcases IntOp.ori_eq_one.1 h01 with h0 | h1
      · exact Or.inl (StableHlo.Predicate.cmpi_eq_iff.1 h0)
      · exact Or.inr (Or.inl (StableHlo.Predicate.cmpi_eq_iff.1 h1))
    · exact Or.inr (Or.inr (StableHlo.Predicate.cmpi_eq_iff.1 h255))
end Cert.PreFacts

end
-- ==== Proof.Spec.lean ====
/-
  The loss both programs compute, pixel by pixel, on the extended reals.

  An image has two logit planes `x0 x1` and a label plane `t` (labels 0 and 1; 255 marks a pixel that is ignored).
  Per pixel: the cross entropy of the label's class under the two-class softmax, written as a softplus of the signed
  logit difference; a focal term `(1 - e^{-ce})² · ce`; and a boundary term `ce · (1 + (dil - ero))`, where `dil` and
  `ero` are the 5×5 maximum and minimum of the label-1 indicator around the pixel, a position outside the image
  counting as the bottom (for the maximum) or the top (for the minimum). Each term is kept only on pixels whose label
  is not 255. The loss is the focal terms' mean plus half the boundary terms' mean over the kept pixels.
-/
import Idealize.ShloMosaic.PureOps.Ideal
import Idealize.ShloMosaic.Lib.ValueIdx

noncomputable section

namespace Cert.Spec

open Idealize.ShloMosaic Idealize.ShloMosaic.ValueIdx
open scoped BigOperators

/-- The logits: image, class, row, column. -/
abbrev SX : Shape := ⟨4, ![16, 2, 1024, 1024]⟩
/-- The labels, and every per-pixel quantity: image, row, column. -/
abbrev SP : Shape := ⟨3, ![16, 1024, 1024]⟩

/-! ## One pixel -/

/-- 1 on a pixel that counts, 0 on an ignored one. -/
def validP (t : BitVec 32) : EReal := if t = 255#32 then 0 else 1

/-- The indicator of label 1. -/
def roadP (t : BitVec 32) : EReal := if t = 1#32 then 1 else 0

/-- `log (1 + e^s)` in its overflow-free spelling `max s 0 + log1p (e^{-|s|})`. -/
def softplus (s : EReal) : EReal := max s 0 + Ideal.log1p (Ideal.exp (0 - max (s - 0) (-(s - 0))))

/-- The logit difference, signed so that the label's class is the one subtracted. -/
def signedDiff (x0 x1 : EReal) (t : BitVec 32) : EReal := if t = 1#32 then 0 - (x1 - x0) else x1 - x0

/-- The cross entropy of the label's class: label 1 gives `softplus (x0 - x1)`, any other label `softplus (x1 - x0)`. -/
def ceP (x0 x1 : EReal) (t : BitVec 32) : EReal := softplus (signedDiff x0 x1 t)

/-- The focal term from the cross entropy: `(1 - e^{-ce})² · ce`, kept where the pixel counts. -/
def focalOf (ce v : EReal) : EReal := (1 - Ideal.exp (0 - ce)) * (1 - Ideal.exp (0 - ce)) * ce * v

/-- The boundary term: the cross entropy weighted `1 + (dil - ero)`, kept where the pixel counts. -/
def boundOf (ce dil ero v : EReal) : EReal := ce * (1 + (dil - ero) * 1) * v

/-! ## The window of five along one axis -/

/-- Entry `c + k - 2` of a row of 1024, and `z` where that position is outside the row. -/
def shiftOr (z : EReal) (f : Fin 1024 → EReal) (c : Fin 1024) (k : Fin 5) : EReal :=
  if h : 2 ≤ c.val + k.val ∧ c.val + k.val - 2 < 1024 then f ⟨c.val + k.val - 2, h.2⟩ else z

/-- The fold of `op` over the five entries around `c`, the centre first, then offsets -2, -1, +1, +2; `z` stands for a
    position outside the row. -/
def win5 (op : EReal → EReal → EReal) (z : EReal) (f : Fin 1024 → EReal) (c : Fin 1024) : EReal :=
  op (op (op (op (f c) (shiftOr z f c 0)) (shiftOr z f c 1)) (shiftOr z f c 3)) (shiftOr z f c 4)

/-- The 5×5 maximum around `(r, c)`: along each row first, then along the column. -/
def dilP (road : Fin 1024 → Fin 1024 → EReal) (r c : Fin 1024) : EReal :=
  win5 max ⊥ (fun r' => win5 max ⊥ (road r') c) r

/-- The 5×5 minimum around `(r, c)`. -/
def eroP (road : Fin 1024 → Fin 1024 → EReal) (r c : Fin 1024) : EReal :=
  win5 min ⊤ (fun r' => win5 min ⊤ (road r') c) r

/-! ## The arrays -/

variable (X : SX.Idx → EReal) (T : SP.Idx → BitVec 32)

/-- Whether pixel `j` counts. -/
def validAt (j : SP.Idx) : EReal := validP (T j)

/-- The cross entropy at pixel `(n, r, c)`. -/
def ceAt (n : Fin 16) (r c : Fin 1024) : EReal := ceP (X (ix4 n 0 r c)) (X (ix4 n 1 r c)) (T (ix3 n r c))

/-- Image `n`'s label-1 indicator as a plane. -/
def roadAt (n : Fin 16) (r c : Fin 1024) : EReal := roadP (T (ix3 n r c))

/-- The focal term at a pixel. -/
def focalAt (n : Fin 16) (r c : Fin 1024) : EReal := focalOf (ceAt X T n r c) (validP (T (ix3 n r c)))

/-- The boundary term at a pixel. -/
def boundAt (n : Fin 16) (r c : Fin 1024) : EReal :=
  boundOf (ceAt X T n r c) (dilP (roadAt T n) r c) (eroP (roadAt T n) r c) (validP (T (ix3 n r c)))

/-- The sum of a per-pixel quantity over every pixel of every image, from zero. -/
def total (g : Fin 16 → Fin 1024 → Fin 1024 → EReal) : EReal := 0 + ∑ j : SP.Idx, g (j 0) (j 1) (j 2)

/-- The loss: the focal terms' mean plus half the boundary terms' mean, over the pixels that count. -/
def loss : EReal :=
  1 * Ideal.div (total (focalAt X T)) (total fun n r c => validP (T (ix3 n r c)))
    + Ideal.ofBits .f32 0x3F000000#32 * Ideal.div (total (boundAt X T)) (total fun n r c => validP (T (ix3 n r c)))

/-! ## The literal words both programs carry -/

theorem ofBits_zero : Ideal.ofBits .f32 0x00000000#32 = 0 := by simp [Ideal.ofBits, Ideal.ieee]
theorem ofBits_one : Ideal.ofBits .f32 0x3F800000#32 = 1 := by
  simp [Ideal.ofBits, Ideal.ieee]
  rw [← EReal.coe_mul]; norm_num
theorem ofBits_two : Ideal.ofBits .f32 0x40000000#32 = 2 := by
  simp [Ideal.ofBits, Ideal.ieee]
  rw [← EReal.coe_mul]; norm_num
  first | rfl | norm_cast
theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]

end Cert.Spec

end
-- ==== Proof.KernelMorph.lean ====
/- One row of the kernel's boundary sum: the separable 5×5 maximum and minimum of the label-1 indicator, built from rotations masked at the image's edge. -/
import proofs.«414771_j81527069213369_2_alg».proof.Proof.Gen.KernelIdeal.Skeleton
import proofs.«414771_j81527069213369_2_alg».proof.Proof.Spec
import Idealize.ShloMosaic.Lib.KernelVsHost
import Idealize.ShloMosaic.PureOps.Ideal.Laws

noncomputable section

open Idealize.ShloMosaic Idealize.ShloMosaic.ValueIdx Idealize.SL.Sem
open scoped BigOperators

namespace Cert.KernelIdeal.Pix
open Cert.KernelIdeal Cert.KernelIdeal.Gen Cert.Spec
/-- the label-1 indicator of a mask plane -/
def roadOf (v11 : IVec S1024x1024 1) (r c : Fin 1024) : EReal := if v11 (ix2 r c) = 1#1 then 1 else 0

namespace Morph

/-! ## A rotation, the lane counter and a signed compare, read at (r, c) -/

section Coordinates
variable {α : Type}

/-- A plane rotated along its columns, read at (r, c): the plane at row r and the column that lies the amount back,
    counted around the row's end. -/
theorem rot1_apply (sb : BitVec 32) (v : S1024x1024.Idx → α) (h : S1024x1024.Rotates 1 none) (r c c' : Fin 1024)
    (hc : c'.val = (c.val + 1024 - sb.toNat % 1024) % 1024) :
    dynamicRotate 1 sb none v h (ix2 r c) = v (ix2 r c') := by
  refine dynamicRotate_apply 1 sb v h (ix2 r c) (ix2 r c') ?_
  intro b
  fin_cases b
  · rfl
  · exact hc

/-- A plane rotated along its rows, read at (r, c): the plane at column c and the row that lies the amount back,
    counted around the column's end. -/
theorem rot0_apply (sb : BitVec 32) (v : S1024x1024.Idx → α) (h : S1024x1024.Rotates 0 none) (r c r' : Fin 1024)
    (hr : r'.val = (r.val + 1024 - sb.toNat % 1024) % 1024) :
    dynamicRotate 0 sb none v h (ix2 r c) = v (ix2 r' c) := by
  refine dynamicRotate_apply 0 sb v h (ix2 r c) (ix2 r' c) ?_
  intro b
  fin_cases b
  · exact hr
  · rfl

end Coordinates

/-- The counter along the columns at (r, c) is the word of c. -/
theorem iota1_apply (h : S1024x1024.Iotas .tc 32 [1]) (r c : Fin 1024) :
    iota .tc S1024x1024 32 [1] h (ix2 r c) = BitVec.ofNat 32 c.val := by
  simp [iota]

/-- The counter along the rows at (r, c) is the word of r. -/
theorem iota0_apply (h : S1024x1024.Iotas .tc 32 [0]) (r c : Fin 1024) :
    iota .tc S1024x1024 32 [0] h (ix2 r c) = BitVec.ofNat 32 r.val := by
  simp [iota]

/-- A natural number up to 1024, as a 32-bit word read signed, is itself: it is below 2³¹. -/
theorem toInt_small (a : Nat) (ha : a < 1025) : (BitVec.ofNat 32 a).toInt = (a : Int) := by
  rw [BitVec.toInt_eq_toNat_of_lt, BitVec.toNat_ofNat, Nat.mod_eq_of_lt (by omega)]
  rw [BitVec.toNat_ofNat, Nat.mod_eq_of_lt (by omega)]; omega

/-- The signed "less than" of two such words is the order of the naturals. -/
theorem slt_small (a b : Nat) (ha : a < 1025) (hb : b < 1025) :
    IntOp.cmpi .slt (BitVec.ofNat 32 a) (BitVec.ofNat 32 b) = if a < b then 1#1 else 0#1 := by
  by_cases h : a < b
  · rw [if_pos h]; exact IntOp.cmpi_slt.2 (by rw [toInt_small a ha, toInt_small b hb]; exact_mod_cast h)
  · rw [if_neg h]
    refine eq_zero_of_ne_one fun h1 => h ?_
    have := IntOp.cmpi_slt.1 h1
    rw [toInt_small a ha, toInt_small b hb] at this; exact_mod_cast this

/-- The signed "greater or equal" of two such words is the order of the naturals. -/
theorem sge_small (a b : Nat) (ha : a < 1025) (hb : b < 1025) :
    IntOp.cmpi .sge (BitVec.ofNat 32 a) (BitVec.ofNat 32 b) = if b ≤ a then 1#1 else 0#1 := by
  by_cases h : b ≤ a
  · rw [if_pos h]; exact IntOp.cmpi_sge.2 (by rw [toInt_small a ha, toInt_small b hb]; exact_mod_cast h)
  · rw [if_neg h]
    refine eq_zero_of_ne_one fun h1 => h ?_
    have := IntOp.cmpi_sge.1 h1
    rw [toInt_small a ha, toInt_small b hb] at this; exact_mod_cast this

/-! ## A masked rotation is one entry of the window

Rotating by m ≤ 2 brings entry c − m to position c, and the first m positions, which the rotation fills from the
row's far end, are the ones the mask "counter < m" replaces by the fill: that is the window's entry at offset −m,
the fill standing for a position before the row. Rotating by 1024 − m brings entry c + m to position c, and the last m
positions are the ones the mask "counter ≥ 1024 − m" replaces: the window's entry at offset +m. The same along the
rows. -/

/-- Along a row, offsets −2 and −1 (the window's entries 0 and 1). -/
theorem lo1 (z : EReal) (v : S1024x1024.Idx → EReal) (hi : S1024x1024.Iotas .tc 32 [1]) (hr : S1024x1024.Rotates 1 none)
    (m : Nat) (k : Fin 5) (hk : k.val + m = 2) (r c : Fin 1024) :
    select (cmpi .slt (iota .tc S1024x1024 32 [1] hi) (broadcast S1024x1024 (BitVec.ofNat 32 m))) (broadcast S1024x1024 z)
        (dynamicRotate 1 (BitVec.ofNat 32 m) none v hr) (ix2 r c)
      = shiftOr z (fun c' => v (ix2 r c')) c k := by
  rw [select_apply, broadcast_apply]
  show Scalar.select (IntOp.cmpi .slt (iota .tc S1024x1024 32 [1] hi (ix2 r c)) (BitVec.ofNat 32 m)) z _ = _
  rw [iota1_apply, slt_small _ _ (by omega) (by omega)]
  unfold shiftOr
  by_cases h : c.val < m
  · rw [if_pos h, select_one, dif_neg (by omega)]
  · rw [if_neg h, select_zero, dif_pos (by omega)]
    exact rot1_apply _ v hr r c _ (by simp only [BitVec.toNat_ofNat]; omega)

/-- Along a row, offsets +1 and +2 (the window's entries 3 and 4). -/
theorem hi1 (z : EReal) (v : S1024x1024.Idx → EReal) (hi : S1024x1024.Iotas .tc 32 [1]) (hr : S1024x1024.Rotates 1 none)
    (a : Nat) (k : Fin 5) (hk : a + k.val = 1026) (hk2 : 2 < k.val) (r c : Fin 1024) :
    select (cmpi .sge (iota .tc S1024x1024 32 [1] hi) (broadcast S1024x1024 (BitVec.ofNat 32 a))) (broadcast S1024x1024 z)
        (dynamicRotate 1 (BitVec.ofNat 32 a) none v hr) (ix2 r c)
      = shiftOr z (fun c' => v (ix2 r c')) c k := by
  rw [select_apply, broadcast_apply]
  show Scalar.select (IntOp.cmpi .sge (iota .tc S1024x1024 32 [1] hi (ix2 r c)) (BitVec.ofNat 32 a)) z _ = _
  rw [iota1_apply, sge_small _ _ (by omega) (by omega)]
  unfold shiftOr
  by_cases h : a ≤ c.val
  · rw [if_pos h, select_one, dif_neg (by omega)]
  · rw [if_neg h, select_zero, dif_pos (by omega)]
    exact rot1_apply _ v hr r c _ (by simp only [BitVec.toNat_ofNat]; omega)

/-- Along a column, offsets −2 and −1. -/
theorem lo0 (z : EReal) (v : S1024x1024.Idx → EReal) (hi : S1024x1024.Iotas .tc 32 [0]) (hr : S1024x1024.Rotates 0 none)
    (m : Nat) (k : Fin 5) (hk : k.val + m = 2) (r c : Fin 1024) :
    select (cmpi .slt (iota .tc S1024x1024 32 [0] hi) (broadcast S1024x1024 (BitVec.ofNat 32 m))) (broadcast S1024x1024 z)
        (dynamicRotate 0 (BitVec.ofNat 32 m) none v hr) (ix2 r c)
      = shiftOr z (fun r' => v (ix2 r' c)) r k := by
  rw [select_apply, broadcast_apply]
  show Scalar.select (IntOp.cmpi .slt (iota .tc S1024x1024 32 [0] hi (ix2 r c)) (BitVec.ofNat 32 m)) z _ = _
  rw [iota0_apply, slt_small _ _ (by omega) (by omega)]
  unfold shiftOr
  by_cases h : r.val < m
  · rw [if_pos h, select_one, dif_neg (by omega)]
  · rw [if_neg h, select_zero, dif_pos (by omega)]
    exact rot0_apply _ v hr r c _ (by simp only [BitVec.toNat_ofNat]; omega)

/-- Along a column, offsets +1 and +2. -/
theorem hi0 (z : EReal) (v : S1024x1024.Idx → EReal) (hi : S1024x1024.Iotas .tc 32 [0]) (hr : S1024x1024.Rotates 0 none)
    (a : Nat) (k : Fin 5) (hk : a + k.val = 1026) (hk2 : 2 < k.val) (r c : Fin 1024) :
    select (cmpi .sge (iota .tc S1024x1024 32 [0] hi) (broadcast S1024x1024 (BitVec.ofNat 32 a))) (broadcast S1024x1024 z)
        (dynamicRotate 0 (BitVec.ofNat 32 a) none v hr) (ix2 r c)
      = shiftOr z (fun r' => v (ix2 r' c)) r k := by
  rw [select_apply, broadcast_apply]
  show Scalar.select (IntOp.cmpi .sge (iota .tc S1024x1024 32 [0] hi (ix2 r c)) (BitVec.ofNat 32 a)) z _ = _
  rw [iota0_apply, sge_small _ _ (by omega) (by omega)]
  unfold shiftOr
  by_cases h : a ≤ r.val
  · rw [if_pos h, select_one, dif_neg (by omega)]
  · rw [if_neg h, select_zero, dif_pos (by omega)]
    exact rot0_apply _ v hr r c _ (by simp only [BitVec.toNat_ofNat]; omega)

/-! ## The literal words: the two fills and the unit weight -/

theorem sc_neg_inf : (Scalar.ofBits .f32 0xFF800000#32 : Ideal .f32) = (⊥ : EReal) := ofBits_neg_inf
theorem sc_pos_inf : (Scalar.ofBits .f32 0x7F800000#32 : Ideal .f32) = (⊤ : EReal) := ofBits_pos_inf
theorem sc_one : (Scalar.ofBits .f32 0x3F800000#32 : Ideal .f32) = (1 : EReal) := ofBits_one

/-! ## The planes the kernel builds, read at (r, c) -/

/-- The mask bit widened to a word and converted signed is 1 where the bit is set and 0 where it is not. -/
theorem pay11_apply (v11 : IVec S1024x1024 1) (r c : Fin 1024) :
    k0_pay11 (F := Ideal) v11 (ix2 r c) = roadOf v11 r c := by
  show ((((v11 (ix2 r c)).setWidth 32).toInt : ℝ) : EReal) = (if v11 (ix2 r c) = 1#1 then 1 else 0 : EReal)
  rcases BitVec.eq_zero_or_eq_one (v11 (ix2 r c)) with h | h <;> rw [h] <;> simp

/-- Row r of the converted mask is row r of the indicator. -/
theorem pay11_row (v11 : IVec S1024x1024 1) (r : Fin 1024) :
    (fun c' => k0_pay11 (F := Ideal) v11 (ix2 r c')) = roadOf v11 r := funext fun c' => pay11_apply v11 r c'

/-- The maximum of five along a row: the centre, then the four masked rotations in the window's order, the fill the
    bottom element. -/
theorem pay12_apply (v11 : IVec S1024x1024 1) (r c : Fin 1024) :
    k0_pay12 (F := Ideal) v11 (ix2 r c) = win5 max ⊥ (roadOf v11 r) c := by
  unfold k0_pay12
  simp only [maximumf_apply]
  rw [lo1 _ _ _ _ 2 0 rfl, lo1 _ _ _ _ 1 1 rfl, hi1 _ _ _ _ 1023 3 rfl (by decide), hi1 _ _ _ _ 1022 4 rfl (by decide),
    sc_neg_inf, pay11_row, pay11_apply]
  rfl

/-- The first step of the minimum of five along a row: the centre against offset −2, the fill the top element. -/
theorem pay13_apply (v11 : IVec S1024x1024 1) (r c : Fin 1024) :
    k0_pay13 (F := Ideal) v11 (ix2 r c) = min (roadOf v11 r c) (shiftOr ⊤ (roadOf v11 r) c 0) := by
  unfold k0_pay13
  simp only [minimumf_apply]
  rw [lo1 _ _ _ _ 2 0 rfl, sc_pos_inf, pay11_row, pay11_apply]

/-- The other three steps of that minimum, over any plane and any value carried in. -/
theorem pay14_apply (v49 v84 : FVec Ideal S1024x1024 .f32) (r c : Fin 1024) :
    k0_pay14 (F := Ideal) v49 v84 1#32 (ix2 r c)
      = min (min (min (v84 (ix2 r c)) (shiftOr ⊤ (fun c' => v49 (ix2 r c')) c 1)) (shiftOr ⊤ (fun c' => v49 (ix2 r c')) c 3))
          (shiftOr ⊤ (fun c' => v49 (ix2 r c')) c 4) := by
  unfold k0_pay14
  simp only [minimumf_apply]
  rw [lo1 _ _ _ _ 1 1 rfl, hi1 _ _ _ _ 1023 3 rfl (by decide), hi1 _ _ _ _ 1022 4 rfl (by decide), sc_pos_inf]

/-- The first three steps of the maximum of five down a column, over any plane. -/
theorem pay15_apply (v77 : FVec Ideal S1024x1024 .f32) (r c : Fin 1024) :
    k0_pay15 (F := Ideal) v77 (ix2 r c)
      = max (max (max (v77 (ix2 r c)) (shiftOr ⊥ (fun r' => v77 (ix2 r' c)) r 0)) (shiftOr ⊥ (fun r' => v77 (ix2 r' c)) r 1))
          (shiftOr ⊥ (fun r' => v77 (ix2 r' c)) r 3) := by
  unfold k0_pay15
  simp only [maximumf_apply]
  rw [lo0 _ _ _ _ 2 0 rfl, lo0 _ _ _ _ 1 1 rfl, hi0 _ _ _ _ 1023 3 rfl (by decide), sc_neg_inf]

/-- The four steps together: the minimum of five along a row of the indicator. -/
theorem pay14_row (v11 : IVec S1024x1024 1) (r c : Fin 1024) :
    k0_pay14 (F := Ideal) (k0_pay11 (F := Ideal) v11) (k0_pay13 (F := Ideal) v11) 1#32 (ix2 r c) = win5 min ⊤ (roadOf v11 r) c := by
  rw [pay14_apply, pay13_apply, pay11_row]
  rfl

/-! ## The weighted row sum -/

/-- The sum of a plane over its columns, at row r, from the zero word. -/
theorem sum_row (src : FVec Ideal S1024x1024 .f32) (r : Fin 1024) :
    multiReduction .add [1] S1024 src 0x00000000#32 reduces_S1024x1024_S1024 (.inl rfl) rfl (ix1 r)
      = ∑ c : Fin 1024, src (ix2 r c) := by
  refine (Ideal.multiReduction_add_single src 0x00000000#32 reduces_S1024x1024_S1024 (.inl rfl) rfl (ix1 r)).trans ?_
  refine Finset.sum_congr rfl fun c _ => congrArg src ?_
  funext a
  fin_cases a <;> rfl

/-- Over any three planes carried in: the last step of the column maximum, the whole column minimum, their
    difference weighted into `1 + (·) · 1`, the two factors around it, and the sum over the row. -/
theorem pay16_gen (v29 v31 v77 v105 v126 : FVec Ideal S1024x1024 .f32) (r : Fin 1024) :
    k0_pay16 (F := Ideal) v29 v31 v77 v105 v126 1022#32 (ix1 r)
      = ∑ c : Fin 1024, v29 (ix2 r c)
          * (1 + (max (v126 (ix2 r c)) (shiftOr ⊥ (fun r' => v77 (ix2 r' c)) r 4)
                  - win5 min ⊤ (fun r' => v105 (ix2 r' c)) r) * 1)
          * v31 (ix2 r c) := by
  unfold k0_pay16
  refine (sum_row _ r).trans ?_
  refine Finset.sum_congr rfl fun c _ => ?_
  simp only [mulf_apply, addf_apply, subf_apply, maximumf_apply, minimumf_apply]
  rw [hi0 _ _ _ _ 1022 4 rfl (by decide), lo0 _ _ _ _ 2 0 rfl, lo0 _ _ _ _ 1 1 rfl, hi0 _ _ _ _ 1023 3 rfl (by decide),
    hi0 _ _ _ _ 1022 4 rfl (by decide), broadcast_apply, sc_neg_inf, sc_pos_inf, sc_one]
  rfl

end Morph

open Morph in
theorem pay16_apply (v29 v31 : FVec Ideal S1024x1024 .f32) (v11 : IVec S1024x1024 1) (r : Fin 1024) :
    k0_pay16 (F := Ideal) v29 v31 (k0_pay12 (F := Ideal) v11) (k0_pay14 (k0_pay11 (F := Ideal) v11) (k0_pay13 (F := Ideal) v11) 1#32) (k0_pay15 (k0_pay12 (F := Ideal) v11)) 1022#32 (ix1 r)
      = ∑ c : Fin 1024, boundOf (v29 (ix2 r c)) (dilP (roadOf v11) r c) (eroP (roadOf v11) r c) (v31 (ix2 r c)) := by
  -- the row sum over the three planes; then, column by column, the row windows under the column windows are the
  -- separable 5×5 maximum and minimum of the indicator
  refine (pay16_gen _ _ _ _ _ r).trans ?_
  refine Finset.sum_congr rfl fun c _ => ?_
  have h12 : (fun r' => k0_pay12 (F := Ideal) v11 (ix2 r' c)) = fun r' => win5 max ⊥ (roadOf v11 r') c :=
    funext fun r' => pay12_apply v11 r' c
  have h14 : (fun r' => k0_pay14 (F := Ideal) (k0_pay11 (F := Ideal) v11) (k0_pay13 (F := Ideal) v11) 1#32 (ix2 r' c))
      = fun r' => win5 min ⊤ (roadOf v11 r') c := funext fun r' => pay14_row v11 r' c
  rw [pay15_apply, h12, h14, pay12_apply]
  rfl
end Cert.KernelIdeal.Pix

end
-- ==== Proof.KernelPix.lean ====
/- What the kernel's body leaves in each of its three output blocks: the image's sums of the focal terms, of the boundary terms, and of the counted pixels. -/
import proofs.«414771_j81527069213369_2_alg».proof.Proof.Gen.KernelIdeal.Frame
import proofs.«414771_j81527069213369_2_alg».proof.Proof.Spec
import proofs.«414771_j81527069213369_2_alg».proof.Proof.KernelMorph
import Idealize.ShloMosaic.Lib.Pipeline.Value
import Idealize.ShloMosaic.PureOps.Ideal.Laws

noncomputable section

open Idealize.ShloMosaic Idealize.ShloMosaic.ValueIdx Idealize.SL.Sem
open scoped BigOperators

namespace Cert.KernelIdeal.Pix
open Cert.KernelIdeal Cert.KernelIdeal.Gen Cert.Spec

/-! ## Words: the two label tests and the never-true comparison -/

/-- The equality test of two words is the bit 1 exactly when they are equal. -/
theorem cmpi_eq_word (t u : BitVec 32) : IntOp.cmpi .eq t u = if t = u then 1#1 else 0#1 := by
  by_cases h : t = u
  · simp [IntOp.cmpi, h]
  · have hb : (t == u) = false := beq_false_of_ne h
    simp [IntOp.cmpi, h, hb]

/-- The inequality test is the bit 0 exactly when they are equal. -/
theorem cmpi_ne_word (t u : BitVec 32) : IntOp.cmpi .ne t u = if t = u then 0#1 else 1#1 := by
  by_cases h : t = u
  · simp [IntOp.cmpi, h]
  · have hb : (t != u) = true := bne_iff_ne.mpr h
    simp [IntOp.cmpi, h, hb]

/-- "Label is not 255", widened to a word and read as a signed integer, is the pixel's weight: 0 on an ignored pixel, 1 on any other. -/
theorem valid_word (t : BitVec 32) :
    ((((IntOp.cmpi .ne t 255#32).setWidth 32).toInt : ℝ) : EReal) = validP t := by
  have e0 : ((0#1 : BitVec 1).setWidth 32).toInt = 0 := by decide
  have e1 : ((1#1 : BitVec 1).setWidth 32).toInt = 1 := by decide
  rw [cmpi_ne_word]; unfold validP
  by_cases h : t = 255#32
  · rw [if_pos h, if_pos h, e0]; simp
  · rw [if_neg h, if_neg h, e1]; simp

/-- No extended real differs from itself, so the ordered "not equal" of a value with itself is the bit 0. -/
theorem cmp_one_self (x : EReal) : Ideal.cmp .one x x = 0#1 := by
  show BitVec.ofBool (decide (x ≠ x)) = 0#1
  rw [decide_eq_false (fun h => h rfl)]; rfl

/-- The kernel's cross entropy at one pixel from the two class logits and the "label is 1" bit: the signed logit
    difference, then its softplus in the overflow-free spelling, guarded by a comparison that is never true. -/
def kce (a b : EReal) (m : BitVec 1) : EReal :=
  let z : EReal := Ideal.ofBits .f32 0x00000000#32
  let s : EReal := Scalar.select m (z - (b - a)) (b - a)
  Scalar.select (Ideal.cmp .one (s - z) (s - z)) (s + z)
    (max s z + Ideal.log1p (Ideal.exp (z - max (s - z) (-(s - z)))))

/-- With the bit computed from the label it is the specification's cross entropy: the guard takes its second branch,
    and the select on "label is 1" is the specification's case split. -/
theorem kce_eq (a b : EReal) (t : BitVec 32) : kce a b (IntOp.cmpi .eq t 1#32) = ceP a b t := by
  unfold kce ceP softplus signedDiff
  dsimp only
  rw [cmp_one_self, select_zero, ofBits_zero, cmpi_eq_word]
  by_cases h : t = 1#32
  · rw [if_pos h, if_pos h, select_one]
  · rw [if_neg h, if_neg h, select_zero]

/-! ## Layout: the whole-block loads, the class planes, the [1,1] value spread over the output block -/

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The load of the whole logit block reads the block. -/
theorem ld_logits (x0 : Vec Ideal S1x2x1024x1024 .f32) : View.ld x0 r0_0 = x0 := View.ld_unit_zero zeros4 _ x0
/-- The load of the whole label block reads the block. -/
theorem ld_labels (x1 : Vec Ideal S1x1024x1024 .i32) : View.ld x1 r0_1 = x1 := View.ld_unit_zero zeros3 _ x1

/-- The label block seen as a plane: the leading unit axis dropped. -/
theorem pay4_apply (x1 : Vec Ideal S1x1024x1024 .i32) (r c : Fin 1024) :
    k0_pay4 (F := Ideal) x1 (ix2 r c) = x1 (ix3 0 r c) := by
  unfold k0_pay4
  exact shapeCast_apply x1 _ (ix2 r c) (ix3 (0 : Fin 1) r c) (by
    rw [Shape.rowMajor_val_two, Shape.rowMajor_val_three]
    show (0 * 1024 + r.val) * 1024 + c.val = r.val * 1024 + c.val
    omega)

/-- Class k's logit plane of the block: the block without its unit axis, sliced at class k, the slice's unit axis dropped. -/
theorem plane_apply (x0 : Vec Ideal S1x2x1024x1024 .f32) (k : Fin 2) (off : Fin 3 → Nat) (hoff : off = ![k.val, 0, 0])
    (h1 : S1x2x1024x1024.ShapeCasts S2x1024x1024) (h2 : S2x1024x1024.Slices off S1x1024x1024)
    (h3 : S1x1024x1024.ShapeCasts S1024x1024) (r c : Fin 1024) :
    shapeCast S1024x1024 (extractStridedSlice S1x1024x1024 off (shapeCast S2x1024x1024 x0 h1) h2) h3 (ix2 r c)
      = x0 (ix4 0 k r c) := by
  subst hoff
  refine (shapeCast_apply _ h3 (ix2 r c) (ix3 (0 : Fin 1) r c) ?_).trans ?_
  · rw [Shape.rowMajor_val_two, Shape.rowMajor_val_three]
    show (0 * 1024 + r.val) * 1024 + c.val = r.val * 1024 + c.val
    omega
  refine (extractStridedSlice_apply _ _ h2 (ix3 (0 : Fin 1) r c) (ix3 k r c) ?_).trans ?_
  · intro a
    match a with
    | ⟨0, _⟩ => rfl
    | ⟨1, _⟩ => exact (Nat.zero_add _).symm
    | ⟨2, _⟩ => exact (Nat.zero_add _).symm
  exact shapeCast_apply x0 h1 (ix3 k r c) (ix4 (0 : Fin 1) k r c) (by
    rw [Shape.rowMajor_val_three, Shape.rowMajor_val_four]
    show ((0 * 2 + k.val) * 1024 + r.val) * 1024 + c.val = (k.val * 1024 + r.val) * 1024 + c.val
    omega)

/-- A [1,1] value cast to itself, spread along 128 lanes and given a leading unit axis reads, everywhere, its one entry. -/
theorem spread_apply (v : FVec Ideal S1x1 .f32) (h1 : S1x1.ShapeCasts S1x1) (h2 : S1x1.Broadcasts S1x128)
    (h3 : S1x128.ShapeCasts S1x1x128) (y : S1x1x128.Idx) :
    shapeCast S1x1x128 (broadcastTo S1x128 (shapeCast S1x1 v h1) h2) h3 y = v (ix2 0 0) := by
  obtain ⟨a, b, c, rfl⟩ : ∃ (a : Fin 1) (b : Fin 1) (c : Fin 128), y = ix3 a b c := ⟨y 0, y 1, y 2, eq_ix3 y⟩
  refine (shapeCast_apply _ h3 (ix3 a b c) (ix2 (0 : Fin 1) c) ?_).trans ?_
  · rw [Shape.rowMajor_val_two, Shape.rowMajor_val_three]
    show 0 * 128 + c.val = (a.val * 1 + b.val) * 128 + c.val
    have := a.isLt; have := b.isLt
    omega
  refine (broadcastTo_apply _ h2 (ix2 (0 : Fin 1) c) (ix2 (0 : Fin 1) (0 : Fin 1)) ?_).trans ?_
  · intro a'
    match a' with
    | ⟨0, _⟩ => rfl
    | ⟨1, _⟩ => rfl
  exact congrFun (shapeCast_self v h1) _

/-! ## Sums: a plane's row sums, a column's sum, and the two together -/

/-- The lane sum of a plane at row r is the sum of the row's entries. -/
theorem rowsum_apply (src : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ c : Fin 1024, src (ix2 r c) := by
  refine (Ideal.multiReduction_add_single src _ h hφ hacc (ix1 r)).trans ?_
  refine Finset.sum_congr rfl fun c _ => congrArg src ?_
  funext a
  refine Fin.ext ?_
  match a with
  | ⟨0, _⟩ => rfl
  | ⟨1, _⟩ => rfl

/-- A vector of 1024 stood up as a column, summed down the column and cast to [1,1], is the sum of its entries. -/
theorem colsum_apply (v : FVec Ideal S1024 .f32) (h2 : S1024.ShapeCasts S1024x1) (h3 : S1024x1.Reduces [0] S1)
    (h4 : S1.ShapeCasts S1x1) (hφ : FKind.Formats .f32) (hacc : (0x00000000#32 : BitVec 32) = FKind.add.neutral .f32 hφ) :
    shapeCast S1x1 (multiReduction .add [0] S1 (shapeCast S1024x1 v h2) 0x00000000#32 h3 hφ hacc) h4 (ix2 0 0)
      = ∑ r : Fin 1024, v (ix1 r) := by
  refine (shapeCast_apply _ h4 (ix2 (0 : Fin 1) (0 : Fin 1)) (ix1 (0 : Fin 1)) ?_).trans ?_
  · rw [Shape.rowMajor_val_one, Shape.rowMajor_val_two]; rfl
  refine (Ideal.multiReduction_add_single _ _ h3 hφ hacc (ix1 (0 : Fin 1))).trans ?_
  refine Finset.sum_congr rfl fun r _ => ?_
  refine shapeCast_apply v h2 _ (ix1 r) ?_
  rw [Shape.rowMajor_val_one, Shape.rowMajor_val_two]
  show r.val = r.val * 1 + 0
  omega

/-- The two reductions in a row: the sum of a plane over rows and columns. -/
theorem sum2_apply (src : FVec Ideal S1024x1024 .f32) (h1 : S1024x1024.Reduces [1] S1024) (h2 : S1024.ShapeCasts S1024x1)
    (h3 : S1024x1.Reduces [0] S1) (h4 : S1.ShapeCasts S1x1) (hφ hφ' : FKind.Formats .f32)
    (hacc : (0x00000000#32 : BitVec 32) = FKind.add.neutral .f32 hφ)
    (hacc' : (0x00000000#32 : BitVec 32) = FKind.add.neutral .f32 hφ') :
    shapeCast S1x1 (multiReduction .add [0] S1 (shapeCast S1024x1 (multiReduction .add [1] S1024 src 0x00000000#32 h1 hφ hacc) h2)
        0x00000000#32 h3 hφ' hacc') h4 (ix2 0 0)
      = ∑ r : Fin 1024, ∑ c : Fin 1024, src (ix2 r c) := by
  refine (colsum_apply _ h2 h3 h4 hφ' hacc').trans ?_
  exact Finset.sum_congr rfl fun r _ => rowsum_apply src h1 hφ hacc r

/-! ## The payloads at an index -/

theorem pay1_apply (v : FVec Ideal S1x1 .f32) (y : S1x1x128.Idx) : k0_pay1 (F := Ideal) v y = v (ix2 0 0) := by
  unfold k0_pay1; exact spread_apply v _ _ _ y

theorem pay3_apply (v : FVec Ideal S1x1 .f32) (y : S1x1x128.Idx) : k0_pay3 (F := Ideal) v y = v (ix2 0 0) := by
  unfold k0_pay3; exact spread_apply v _ _ _ y

theorem pay2_apply (v : FVec Ideal S1024 .f32) (y : S1x1x128.Idx) : k0_pay2 (F := Ideal) v y = ∑ r : Fin 1024, v (ix1 r) := by
  unfold k0_pay2
  refine (spread_apply _ _ _ _ y).trans ?_
  exact colsum_apply v _ _ _ _ _

/-- The "label is 1" bit of a pixel. -/
theorem pay5_apply (x1 : Vec Ideal S1x1024x1024 .i32) (r c : Fin 1024) :
    k0_pay5 (F := Ideal) x1 (ix2 r c) = IntOp.cmpi .eq (x1 (ix3 0 r c)) 1#32 := by
  have e : k0_pay5 (F := Ideal) x1 (ix2 r c) = IntOp.cmpi .eq (k0_pay4 (F := Ideal) x1 (ix2 r c)) 1#32 := rfl
  rw [e, pay4_apply]

/-- The mask plane's indicator is the label-1 indicator of the block. -/
theorem roadOf_pay5 (x1 : Vec Ideal S1x1024x1024 .i32) :
    roadOf (k0_pay5 (F := Ideal) x1) = fun r c => roadP (x1 (ix3 0 r c)) := by
  funext r c
  unfold roadOf roadP
  rw [pay5_apply, cmpi_eq_word]
  by_cases h : x1 (ix3 0 r c) = 1#32
  · rw [if_pos h, if_pos rfl, if_pos h]
  · rw [if_neg h, if_neg (by decide), if_neg h]

/-- The pixel's weight. -/
theorem pay7_apply (x1 : Vec Ideal S1x1024x1024 .i32) (r c : Fin 1024) :
    k0_pay7 (F := Ideal) x1 (ix2 r c) = validP (x1 (ix3 0 r c)) := by
  have e : k0_pay7 (F := Ideal) x1 (ix2 r c)
      = ((((IntOp.cmpi .ne (k0_pay4 (F := Ideal) x1 (ix2 r c)) 255#32).setWidth 32).toInt : ℝ) : EReal) := rfl
  rw [e, pay4_apply]; exact valid_word _

/-- The pixel's cross entropy. -/
theorem pay6_apply (x0 : Vec Ideal S1x2x1024x1024 .f32) (x1 : Vec Ideal S1x1024x1024 .i32) (r c : Fin 1024) :
    k0_pay6 (F := Ideal) x0 x1 (ix2 r c) = ceP (x0 (ix4 0 0 r c)) (x0 (ix4 0 1 r c)) (x1 (ix3 0 r c)) := by
  have e : k0_pay6 (F := Ideal) x0 x1 (ix2 r c)
      = kce (shapeCast S1024x1024 (extractStridedSlice S1x1024x1024 ![0, 0, 0] (shapeCast S2x1024x1024 x0 shapeCasts_S1x2x1024x1024_S2x1024x1024) slices_S2x1024x1024_o0_0_0_S1x1024x1024) shapeCasts_S1x1024x1024_S1024x1024 (ix2 r c))
          (shapeCast S1024x1024 (extractStridedSlice S1x1024x1024 ![1, 0, 0] (shapeCast S2x1024x1024 x0 shapeCasts_S1x2x1024x1024_S2x1024x1024) slices_S2x1024x1024_o1_0_0_S1x1024x1024) shapeCasts_S1x1024x1024_S1024x1024 (ix2 r c))
          (k0_pay5 (F := Ideal) x1 (ix2 r c)) := rfl
  rw [e, plane_apply x0 0 ![0, 0, 0] rfl, plane_apply x0 1 ![1, 0, 0] rfl, pay5_apply]
  exact kce_eq _ _ _

/-- The focal factor times the cross entropy, before the weight. -/
theorem pay9_apply (x0 : Vec Ideal S1x2x1024x1024 .f32) (x1 : Vec Ideal S1x1024x1024 .i32) (r c : Fin 1024) :
    k0_pay9 (F := Ideal) x0 x1 (ix2 r c)
      = (1 - Ideal.exp (0 - ceP (x0 (ix4 0 0 r c)) (x0 (ix4 0 1 r c)) (x1 (ix3 0 r c))))
        * (1 - Ideal.exp (0 - ceP (x0 (ix4 0 0 r c)) (x0 (ix4 0 1 r c)) (x1 (ix3 0 r c))))
        * ceP (x0 (ix4 0 0 r c)) (x0 (ix4 0 1 r c)) (x1 (ix3 0 r c)) := by
  have e : k0_pay9 (F := Ideal) x0 x1 (ix2 r c)
      = (Ideal.ofBits .f32 0x3F800000#32 - Ideal.exp (Ideal.ofBits .f32 0x00000000#32 - k0_pay6 (F := Ideal) x0 x1 (ix2 r c)))
        * (Ideal.ofBits .f32 0x3F800000#32 - Ideal.exp (Ideal.ofBits .f32 0x00000000#32 - k0_pay6 (F := Ideal) x0 x1 (ix2 r c)))
        * k0_pay6 (F := Ideal) x0 x1 (ix2 r c) := rfl
  rw [e, pay6_apply, ofBits_zero, ofBits_one]

/-- The weighted plane summed over rows and columns. -/
theorem pay10_apply (v31 v42 : FVec Ideal S1024x1024 .f32) :
    k0_pay10 (F := Ideal) v31 v42 (ix2 0 0) = ∑ r : Fin 1024, ∑ c : Fin 1024, v42 (ix2 r c) * v31 (ix2 r c) := by
  unfold k0_pay10
  exact sum2_apply (mulf v42 v31) _ _ _ _ _ _ _ _

/-- The weights summed over rows and columns. -/
theorem pay8_apply (x1 : Vec Ideal S1x1024x1024 .i32) :
    k0_pay8 (F := Ideal) x1 (ix2 0 0) = ∑ r : Fin 1024, ∑ c : Fin 1024, validP (x1 (ix3 0 r c)) := by
  unfold k0_pay8
  refine (sum2_apply (k0_pay7 (F := Ideal) x1) _ _ _ _ _ _ _ _).trans ?_
  exact Finset.sum_congr rfl fun r _ => Finset.sum_congr rfl fun c _ => pay7_apply x1 r c

/-! ## The three output blocks -/

theorem out0_2_apply (x0 : Vec Ideal S1x2x1024x1024 .f32) (x1 : Vec Ideal S1x1024x1024 .i32) (y : S1x1x128.Idx) :
    out0_2 (F := Ideal) x0 x1 y
      = ∑ r : Fin 1024, ∑ c : Fin 1024, focalOf (ceP (x0 (ix4 0 0 r c)) (x0 (ix4 0 1 r c)) (x1 (ix3 0 r c))) (validP (x1 (ix3 0 r c))) := by
  unfold out0_2
  rw [View.canon_unit_zero zeros3, ld_logits, ld_labels]
  refine (pay1_apply _ y).trans ?_
  refine (pay10_apply _ _).trans ?_
  refine Finset.sum_congr rfl fun r _ => Finset.sum_congr rfl fun c _ => ?_
  rw [pay9_apply, pay7_apply]
  rfl
theorem out0_3_apply (x0 : Vec Ideal S1x2x1024x1024 .f32) (x1 : Vec Ideal S1x1024x1024 .i32) (y : S1x1x128.Idx) :
    out0_3 (F := Ideal) x0 x1 y
      = ∑ r : Fin 1024, ∑ c : Fin 1024, boundOf (ceP (x0 (ix4 0 0 r c)) (x0 (ix4 0 1 r c)) (x1 (ix3 0 r c)))
          (dilP (fun r' c' => roadP (x1 (ix3 0 r' c'))) r c) (eroP (fun r' c' => roadP (x1 (ix3 0 r' c'))) r c) (validP (x1 (ix3 0 r c))) := by
  unfold out0_3
  rw [View.canon_unit_zero zeros3, ld_logits, ld_labels]
  refine (pay2_apply _ y).trans ?_
  refine Finset.sum_congr rfl fun r _ => ?_
  refine (pay16_apply (k0_pay6 (F := Ideal) x0 x1) (k0_pay7 (F := Ideal) x1) (k0_pay5 (F := Ideal) x1) r).trans ?_
  rw [roadOf_pay5]
  refine Finset.sum_congr rfl fun c _ => ?_
  rw [pay6_apply, pay7_apply]
theorem out0_4_apply (x0 : Vec Ideal S1x2x1024x1024 .f32) (x1 : Vec Ideal S1x1024x1024 .i32) (y : S1x1x128.Idx) :
    out0_4 (F := Ideal) x0 x1 y = ∑ r : Fin 1024, ∑ c : Fin 1024, validP (x1 (ix3 0 r c)) := by
  unfold out0_4
  rw [View.canon_unit_zero zeros3, ld_labels]
  refine (pay3_apply _ y).trans ?_
  exact pay8_apply x1
end Cert.KernelIdeal.Pix

end
-- ==== Proof.KernelValue.lean ====
/-
  The kernel's result, read off its frame run.

  The grid has one point per image. At point `t` the two input windows hold image `t`'s logit planes and label plane, and
  each of the three output windows' blocks, 128 lanes wide, is filled with one number: image `t`'s sum of focal terms, of
  boundary terms, of counted pixels. So after the run entry `[n, 0, l]` of each output array is image `n`'s sum, and
  the host lines after the region add the sixteen entries `[n, 0, 0]` of each array and combine the three totals.
-/
import proofs.«414771_j81527069213369_2_alg».proof.Proof.Gen.KernelIdeal.Frame
import proofs.«414771_j81527069213369_2_alg».proof.Proof.Spec
import proofs.«414771_j81527069213369_2_alg».proof.Proof.KernelPix
import Idealize.ShloMosaic.Lib.Pipeline.Value
import Idealize.ShloMosaic.Lib.StableHlo.Run
import Idealize.ShloMosaic.PureOps.Ideal.Laws
import Idealize.ShloMosaic.Lib.Tactic

noncomputable section

open Idealize.ShloMosaic Idealize.ShloMosaic.TcCoe Idealize.ShloMosaic.ValueIdx Idealize.SL.Sem
open Idealize.ShloMosaic.Pipeline (Dat)
open scoped BigOperators

namespace Cert.Spec

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum over every pixel, image by image, row by row. -/
theorem total_eq (g : Fin 16 → Fin 1024 → Fin 1024 → EReal) :
    total g = 0 + ∑ n : Fin 16, ∑ r : Fin 1024, ∑ c : Fin 1024, g n r c := by
  unfold total
  rw [sum_idx3]

end Cert.Spec

namespace Cert.KernelIdeal.Hand

open Cert.KernelIdeal Cert.KernelIdeal.Gen Cert.Spec

variable (m : (ℓ : Loc nD τ sig) → Buf (Elt Ideal) ℓ) (ρ : Dev nD → PrngReg)

/-- The logits as launched on core `c`. -/
abbrev X (c : Dev nD) : SX.Idx → EReal := m ((c : Thread nD τ).loc main_arg0)
/-- The labels as launched on core `c`. -/
abbrev T (c : Dev nD) : SP.Idx → BitVec 32 := m ((c : Thread nD τ).loc main_arg1)

/-- The windows' index maps over the grid: every window's block at point `t` is the `t`-th along the image axis and
    the only one along every other axis. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The grid point of image `n`. -/
def pt (n : Fin 16) : Fin cfg0.N := ⟨n.val, by rw [show cfg0.N = 16 from N_0]; exact n.isLt⟩

/-- The logit block at point `t` is image `t`'s two planes. -/
theorem iblk0_apply (c : Dev nD) (n : Fin 16) (k : Fin 2) (r q : Fin 1024) :
    (iblk m c 0 (pt n) : Vec Ideal S1x2x1024x1024 .f32) (ix4 0 k r q) = X m c (ix4 n k r q) := by
  obtain ⟨e0, e1, e2, e3, -⟩ := idx_facts (pt n)
  unfold iblk
  rw [View.read_apply]
  show V m c main_arg0 _ = m (c.tc.loc main_arg0) _
  unfold V
  congr 1
  funext a
  apply Fin.ext
  match a with
  | ⟨0, _⟩ => show win0_0.index (pt n) 0 * 1 + 1 * 0 = n.val; rw [e0]; show n.val * 1 + 1 * 0 = n.val; omega
  | ⟨1, _⟩ => show win0_0.index (pt n) 1 * 2 + 1 * k.val = k.val; rw [e1]; omega
  | ⟨2, _⟩ => show win0_0.index (pt n) 2 * 1024 + 1 * r.val = r.val; rw [e2]; omega
  | ⟨3, _⟩ => show win0_0.index (pt n) 3 * 1024 + 1 * q.val = q.val; rw [e3]; omega

/-- The label block at point `t` is image `t`'s plane. -/
theorem iblk1_apply (c : Dev nD) (n : Fin 16) (r q : Fin 1024) :
    (iblk m c 1 (pt n) : Vec Ideal S1x1024x1024 .i32) (ix3 0 r q) = T m c (ix3 n r q) := by
  obtain ⟨-, -, -, -, e0, e1, e2, -⟩ := idx_facts (pt n)
  unfold iblk
  rw [View.read_apply]
  show V m c main_arg1 _ = m (c.tc.loc main_arg1) _
  unfold V
  congr 1
  funext a
  apply Fin.ext
  match a with
  | ⟨0, _⟩ => show win0_1.index (pt n) 0 * 1 + 1 * 0 = n.val; rw [e0]; show n.val * 1 + 1 * 0 = n.val; omega
  | ⟨1, _⟩ => show win0_1.index (pt n) 1 * 1024 + 1 * r.val = r.val; rw [e1]; omega
  | ⟨2, _⟩ => show win0_1.index (pt n) 2 * 1024 + 1 * q.val = q.val; rw [e2]; omega

/-! ## One image's three sums -/

/-- Image `n`'s sum of focal terms. -/
def focalSum (c : Dev nD) (n : Fin 16) : EReal := ∑ r : Fin 1024, ∑ q : Fin 1024, focalAt (X m c) (T m c) n r q
/-- Image `n`'s sum of boundary terms. -/
def boundSum (c : Dev nD) (n : Fin 16) : EReal := ∑ r : Fin 1024, ∑ q : Fin 1024, boundAt (X m c) (T m c) n r q
/-- Image `n`'s number of counted pixels. -/
def validSum (c : Dev nD) (n : Fin 16) : EReal := ∑ r : Fin 1024, ∑ q : Fin 1024, validP (T m c (ix3 n r q))

/-- The image an index of an output array belongs to. -/
def imgOf (i : S16x1x128.Idx) : Fin 16 := ⟨(i 0).val, (i 0).isLt⟩

/-- Every grid point is some image's. -/
theorem exists_pt (t : Fin cfg0.N) : ∃ n : Fin 16, t = pt n :=
  ⟨⟨t.val, Nat.lt_of_lt_of_eq t.isLt (show cfg0.N = 16 from N_0)⟩, Fin.ext rfl⟩

/-- The body's three results at point `pt n`, at any index of the block: image `n`'s three sums. -/
theorem out2_pt (c : Dev nD) (n : Fin 16) (y : S1x1x128.Idx) :
    out0_2 (F := Ideal) (iblk m c 0 (pt n)) (iblk m c 1 (pt n)) y = focalSum m c n := by
  rw [Cert.KernelIdeal.Pix.out0_2_apply]
  unfold focalSum focalAt ceAt
  refine Finset.sum_congr rfl fun r _ => Finset.sum_congr rfl fun q _ => ?_
  rw [iblk0_apply, iblk0_apply, iblk1_apply]

theorem out3_pt (c : Dev nD) (n : Fin 16) (y : S1x1x128.Idx) :
    out0_3 (F := Ideal) (iblk m c 0 (pt n)) (iblk m c 1 (pt n)) y = boundSum m c n := by
  rw [Cert.KernelIdeal.Pix.out0_3_apply]
  unfold boundSum boundAt ceAt roadAt
  refine Finset.sum_congr rfl fun r _ => Finset.sum_congr rfl fun q _ => ?_
  rw [iblk0_apply, iblk0_apply, iblk1_apply]
  simp only [iblk1_apply]

theorem out4_pt (c : Dev nD) (n : Fin 16) (y : S1x1x128.Idx) :
    out0_4 (F := Ideal) (iblk m c 0 (pt n)) (iblk m c 1 (pt n)) y = validSum m c n := by
  rw [Cert.KernelIdeal.Pix.out0_4_apply]
  unfold validSum
  refine Finset.sum_congr rfl fun r _ => Finset.sum_congr rfl fun q _ => ?_
  rw [iblk1_apply]

/-! ## The output arrays after the run -/

/-- An index of an output array lies in point `t`'s block of window 2 iff each coordinate lies in the block's range. -/
theorem mem_blk2 (t : Fin cfg0.N) (i : S16x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v0_0).slice (win0_2.rect t)).set ↔ _
  rw [View.set_slice_whole, Rect.mem_set_unit]
  exact Iff.rfl
theorem mem_blk3 (t : Fin cfg0.N) (i : S16x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v0_1).slice (win0_3.rect t)).set ↔ _
  rw [View.set_slice_whole, Rect.mem_set_unit]
  exact Iff.rfl
theorem mem_blk4 (t : Fin cfg0.N) (i : S16x1x128.Idx) :
    i ∈ ((cfg0.win 4).blk t).view.set ↔ ∀ a : Fin 3, win0_4.index t a * S1x1x128.size a ≤ (i a).val ∧ (i a).val < win0_4.index t a * S1x1x128.size a + S1x1x128.size a := by
  show i ∈ ((View.whole main_v0_2).slice (win0_4.rect t)).set ↔ _
  rw [View.set_slice_whole, Rect.mem_set_unit]
  exact Iff.rfl

/-- What point `t` writes back to the focal array is block `t` of the array whose entry `[n, 0, l]` is image `n`'s sum. -/
theorem flushed2_eq (c : Dev nD) (t : Fin cfg0.N) (_hf : (cfg0.win 2).flush t = true) :
    (dats m 0 c).flushed 2 t = ((cfg0.win 2).blk t).view.read (Elt Ideal) (fun i => focalSum m c (imgOf i)) := by
  obtain ⟨n, rfl⟩ := exists_pt t
  obtain ⟨-, -, -, -, -, -, -, e0, -⟩ := idx_facts (pt n)
  show (cfg0.win 2).cut (grid0.coords (pt n)) ((dats m 0 c).after 2 (pt n)) = _
  rw [after0_2]
  funext y
  show out0_2 (F := Ideal) (iblk m c 0 (pt n)) (iblk m c 1 (pt n)) y = focalSum m c (imgOf (((cfg0.win 2).blk (pt n)).view.emb y))
  rw [out2_pt]
  refine congrArg (focalSum m c) (Fin.ext ?_)
  show n.val = win0_2.index (pt n) 0 * 1 + 1 * (y 0).val
  rw [e0]; have hy : (y 0).val < 1 := (y 0).isLt; show n.val = n.val * 1 + 1 * (y 0).val; omega

theorem flushed3_eq (c : Dev nD) (t : Fin cfg0.N) (_hf : (cfg0.win 3).flush t = true) :
    (dats m 0 c).flushed 3 t = ((cfg0.win 3).blk t).view.read (Elt Ideal) (fun i => boundSum m c (imgOf i)) := by
  obtain ⟨n, rfl⟩ := exists_pt t
  obtain ⟨-, -, -, -, -, -, -, -, -, -, e0, -⟩ := idx_facts (pt n)
  show (cfg0.win 3).cut (grid0.coords (pt n)) ((dats m 0 c).after 3 (pt n)) = _
  rw [after0_3]
  funext y
  show out0_3 (F := Ideal) (iblk m c 0 (pt n)) (iblk m c 1 (pt n)) y = boundSum m c (imgOf (((cfg0.win 3).blk (pt n)).view.emb y))
  rw [out3_pt]
  refine congrArg (boundSum m c) (Fin.ext ?_)
  show n.val = win0_3.index (pt n) 0 * 1 + 1 * (y 0).val
  rw [e0]; have hy : (y 0).val < 1 := (y 0).isLt; show n.val = n.val * 1 + 1 * (y 0).val; omega

theorem flushed4_eq (c : Dev nD) (t : Fin cfg0.N) (_hf : (cfg0.win 4).flush t = true) :
    (dats m 0 c).flushed 4 t = ((cfg0.win 4).blk t).view.read (Elt Ideal) (fun i => validSum m c (imgOf i)) := by
  obtain ⟨n, rfl⟩ := exists_pt t
  obtain ⟨-, -, -, -, -, -, -, -, -, -, -, -, -, e0, -⟩ := idx_facts (pt n)
  show (cfg0.win 4).cut (grid0.coords (pt n)) ((dats m 0 c).after 4 (pt n)) = _
  rw [after0_4]
  funext y
  show out0_4 (F := Ideal) (iblk m c 0 (pt n)) (iblk m c 1 (pt n)) y = validSum m c (imgOf (((cfg0.win 4).blk (pt n)).view.emb y))
  rw [out4_pt]
  refine congrArg (validSum m c) (Fin.ext ?_)
  show n.val = win0_4.index (pt n) 0 * 1 + 1 * (y 0).val
  rw [e0]; have hy : (y 0).val < 1 := (y 0).isLt; show n.val = n.val * 1 + 1 * (y 0).val; omega

/-- Every index of an output array lies in the block of its image's point. -/
theorem cover2 (i : S16x1x128.Idx) : ∃ t : Fin cfg0.N, (cfg0.win 2).flush t = true ∧ i ∈ ((cfg0.win 2).blk t).view.set := by
  obtain ⟨-, -, -, -, -, -, -, e0, e1, e2, -⟩ := idx_facts (pt (imgOf i))
  refine ⟨pt (imgOf i), flush0_2 _, ?_⟩
  rw [mem_blk2]
  have h1 : (i 1).val < 1 := (i 1).isLt
  have h2 : (i 2).val < 128 := (i 2).isLt
  intro a
  match a with
  | ⟨0, _⟩ => show win0_2.index (pt (imgOf i)) 0 * 1 ≤ (i 0).val ∧ (i 0).val < win0_2.index (pt (imgOf i)) 0 * 1 + 1; rw [e0]; show (i 0).val * 1 ≤ (i 0).val ∧ (i 0).val < (i 0).val * 1 + 1; omega
  | ⟨1, _⟩ => show win0_2.index (pt (imgOf i)) 1 * 1 ≤ (i 1).val ∧ (i 1).val < win0_2.index (pt (imgOf i)) 1 * 1 + 1; rw [e1]; omega
  | ⟨2, _⟩ => show win0_2.index (pt (imgOf i)) 2 * 128 ≤ (i 2).val ∧ (i 2).val < win0_2.index (pt (imgOf i)) 2 * 128 + 128; rw [e2]; omega

theorem cover3 (i : S16x1x128.Idx) : ∃ t : Fin cfg0.N, (cfg0.win 3).flush t = true ∧ i ∈ ((cfg0.win 3).blk t).view.set := by
  obtain ⟨-, -, -, -, -, -, -, -, -, -, e0, e1, e2, -⟩ := idx_facts (pt (imgOf i))
  refine ⟨pt (imgOf i), flush0_3 _, ?_⟩
  rw [mem_blk3]
  have h1 : (i 1).val < 1 := (i 1).isLt
  have h2 : (i 2).val < 128 := (i 2).isLt
  intro a
  match a with
  | ⟨0, _⟩ => show win0_3.index (pt (imgOf i)) 0 * 1 ≤ (i 0).val ∧ (i 0).val < win0_3.index (pt (imgOf i)) 0 * 1 + 1; rw [e0]; show (i 0).val * 1 ≤ (i 0).val ∧ (i 0).val < (i 0).val * 1 + 1; omega
  | ⟨1, _⟩ => show win0_3.index (pt (imgOf i)) 1 * 1 ≤ (i 1).val ∧ (i 1).val < win0_3.index (pt (imgOf i)) 1 * 1 + 1; rw [e1]; omega
  | ⟨2, _⟩ => show win0_3.index (pt (imgOf i)) 2 * 128 ≤ (i 2).val ∧ (i 2).val < win0_3.index (pt (imgOf i)) 2 * 128 + 128; rw [e2]; omega

theorem cover4 (i : S16x1x128.Idx) : ∃ t : Fin cfg0.N, (cfg0.win 4).flush t = true ∧ i ∈ ((cfg0.win 4).blk t).view.set := by
  obtain ⟨-, -, -, -, -, -, -, -, -, -, -, -, -, e0, e1, e2⟩ := idx_facts (pt (imgOf i))
  refine ⟨pt (imgOf i), flush0_4 _, ?_⟩
  rw [mem_blk4]
  have h1 : (i 1).val < 1 := (i 1).isLt
  have h2 : (i 2).val < 128 := (i 2).isLt
  intro a
  match a with
  | ⟨0, _⟩ => show win0_4.index (pt (imgOf i)) 0 * 1 ≤ (i 0).val ∧ (i 0).val < win0_4.index (pt (imgOf i)) 0 * 1 + 1; rw [e0]; show (i 0).val * 1 ≤ (i 0).val ∧ (i 0).val < (i 0).val * 1 + 1; omega
  | ⟨1, _⟩ => show win0_4.index (pt (imgOf i)) 1 * 1 ≤ (i 1).val ∧ (i 1).val < win0_4.index (pt (imgOf i)) 1 * 1 + 1; rw [e1]; omega
  | ⟨2, _⟩ => show win0_4.index (pt (imgOf i)) 2 * 128 ≤ (i 2).val ∧ (i 2).val < win0_4.index (pt (imgOf i)) 2 * 128 + 128; rw [e2]; omega

/-- After the run each output array holds its image's sum at every lane. -/
theorem final2 (c : Dev nD) : (dats m 0 c).arrAt 2 cfg0.N = fun i => focalSum m c (imgOf i) :=
  (dats m 0 c).arrAt_eq_of_cover 2 _ (flushed2_eq m c) cover2
theorem final3 (c : Dev nD) : (dats m 0 c).arrAt 3 cfg0.N = fun i => boundSum m c (imgOf i) :=
  (dats m 0 c).arrAt_eq_of_cover 3 _ (flushed3_eq m c) cover3
theorem final4 (c : Dev nD) : (dats m 0 c).arrAt 4 cfg0.N = fun i => validSum m c (imgOf i) :=
  (dats m 0 c).arrAt_eq_of_cover 4 _ (flushed4_eq m c) cover4

/-! ## The host lines after the region -/

/-- A rank-1 index set is its one coordinate's range, so a sum over it is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, ix1, fun i => (eq_ix1 i).symm, fun _ => rfl⟩
  rw [← Equiv.sum_comp e.symm f]
  rfl

/-- The host's view of an output array whose entry `[n, 0, l]` is `g n`: the sixteen entries `[n, 0, 0]` as a vector. -/
abbrev firstLane (g : Fin 16 → EReal) : S16.Idx → EReal :=
  shapeCast S16 (extractStridedSlice S16x1x1 ![0, 0, 0] (fun j : S16x1x128.Idx => g (imgOf j)) slices_S16x1x128_S16x1x1_0_0_0) shapeCasts_S16x1x1_S16

theorem firstLane_apply (g : Fin 16 → EReal) (n : Fin 16) : firstLane g (ix1 n) = g n := by
  refine (shapeCast_apply _ shapeCasts_S16x1x1_S16 (ix1 n) (ix3 n (0 : Fin 1) (0 : Fin 1)) (by
    rw [Shape.rowMajor_val_three, Shape.rowMajor_val_one]; show (n.val * 1 + 0) * 1 + 0 = n.val; omega)).trans ?_
  refine (extractStridedSlice_apply _ _ slices_S16x1x128_S16x1x1_0_0_0 (ix3 n (0 : Fin 1) (0 : Fin 1)) (ix3 n (0 : Fin 1) (0 : Fin 128)) (fun a => by
    match a with
    | ⟨0, _⟩ => show n.val = 0 + n.val; omega
    | ⟨1, _⟩ => rfl
    | ⟨2, _⟩ => rfl)).trans ?_
  exact congrArg g (Fin.ext rfl)

/-- The host's sum of those sixteen entries from the zero word. -/
theorem hostSum (g : Fin 16 → EReal) (i : S_.Idx) :
    Host.reduceAdd (F := Ideal) (φ := .f32) (firstLane g) (constant (F := Ideal) S_ .f32 0x00000000#32) reducesTo_S16_S_d0 h_S_ i
      = Ideal.ofBits .f32 0x00000000#32 + ∑ n : Fin 16, g n := by
  simp only [Host.reduceAdd, Ideal.hostReduceAdd_def]
  rw [Ideal.hostReduceAdd_total reducesTo_S16_S_d0 (fun b => b.elim0), sum_idx1]
  refine congrArg₂ (· + ·) rfl (Finset.sum_congr rfl fun n _ => firstLane_apply g n)

/-- The kernel's result on core `c`: the three totals over the sixteen images, combined. -/
def kloss (c : Dev nD) : EReal :=
  Ideal.ofBits .f32 0x3F800000#32 * Ideal.div (Ideal.ofBits .f32 0x00000000#32 + ∑ n : Fin 16, focalSum m c n) (Ideal.ofBits .f32 0x00000000#32 + ∑ n : Fin 16, validSum m c n)
    + Ideal.ofBits .f32 0x3F000000#32 * Ideal.div (Ideal.ofBits .f32 0x00000000#32 + ∑ n : Fin 16, boundSum m c n) (Ideal.ofBits .f32 0x00000000#32 + ∑ n : Fin 16, validSum m c n)

/-- What the host lines after the region leave in the result buffer. -/
theorem tail_eq (c : Dev nD) : Pipeline.afterTail₀ cfgs (dats m) 0 (V0 m) [hostOps1] c main_v14 = (fun _ => kloss m c) := by
  unfold Pipeline.afterTail₀
  show StableHlo.after hostOps1 _ (Proc.devRef .tc main_v14) = _
  after_results
  have e2 : Pipeline.withArrays (cfgs 0).spec c (V0 m c) (fun w => (dats m 0 c).arrAt w (cfgs 0).N) (Proc.devRef .tc main_v0_0) = fun i => focalSum m c (imgOf i) :=
    (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1) = fun i => boundSum m c (imgOf i) :=
    (Pipeline.withArrays_arr spec0 launch0.win.arr_inj c _ _ 3).trans (final3 m c)
  have e4 : Pipeline.withArrays (cfgs 0).spec c (V0 m c) (fun w => (dats m 0 c).arrAt w (cfgs 0).N) (Proc.devRef .tc main_v0_2) = fun i => validSum m c (imgOf i) :=
    (Pipeline.withArrays_arr spec0 launch0.win.arr_inj c _ _ 4).trans (final4 m c)
  rw [e2, e3, e4]
  funext i0
  show Ideal.ofBits .f32 0x3F800000#32 * Ideal.div
        (Host.reduceAdd (F := Ideal) (φ := .f32) (firstLane (focalSum m c)) (constant (F := Ideal) S_ .f32 0x00000000#32) reducesTo_S16_S_d0 h_S_ i0)
        (Host.reduceAdd (F := Ideal) (φ := .f32) (firstLane (validSum m c)) (constant (F := Ideal) S_ .f32 0x00000000#32) reducesTo_S16_S_d0 h_S_ i0)
      + Ideal.ofBits .f32 0x3F000000#32 * Ideal.div
        (Host.reduceAdd (F := Ideal) (φ := .f32) (firstLane (boundSum m c)) (constant (F := Ideal) S_ .f32 0x00000000#32) reducesTo_S16_S_d0 h_S_ i0)
        (Host.reduceAdd (F := Ideal) (φ := .f32) (firstLane (validSum m c)) (constant (F := Ideal) S_ .f32 0x00000000#32) reducesTo_S16_S_d0 h_S_ i0)
      = kloss m c
  rw [hostSum, hostSum, hostSum]
  rfl

/-- The kernel's result is the loss of the launched logits and labels. -/
theorem kloss_eq_loss (c : Dev nD) : kloss m c = loss (X m c) (T m c) := by
  unfold kloss loss focalSum boundSum validSum
  rw [ofBits_one, ofBits_zero, total_eq, total_eq, total_eq]

/-! ## The run, read -/

/-- Every weakly fair execution of the kernel's program ends with its result buffer at the loss of the launched logits
    and labels, the two arguments unchanged. -/
theorem run_value : θ_run defs (onTc (τ := τ) (main (F := Ideal))) ⟨m, fun _ => 0, ρ⟩ fun r => ∀ c : Dev nD,
      r.2.mem ((c : Thread nD τ).loc main_v14) = (fun _ => loss (X m c) (T m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨(((h c).2 main_v14 (Pipeline.mem_restRefs_of main_v14 rfl (fun w => by fin_cases w <;> decide))).trans (tail_eq m c)).trans
        (funext fun _ => kloss_eq_loss m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand

end
-- ==== Proof.RefRun.lean ====
/- The reference's run, its result stated as the last of its stages: the run over the program's operation list ends
   with the result buffer at the operations' composed term of the two arguments, and that term is the last stage. -/
import proofs.«414771_j81527069213369_2_alg».proof.Proof.RefRead
import Idealize.ShloMosaic.Lib.StableHlo.Run

noncomputable section

open Idealize.ShloMosaic Idealize.SL.Sem

namespace Cert.ReferenceIdeal.StagedRun
open Cert.ReferenceIdeal Cert.ReferenceIdeal.Gen Idealize.ShloMosaic.TcCoe Idealize.ShloMosaic.StableHlo
variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38) = Cert.ReferenceIdeal.ReadP.val_main_v38 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Cert.ReferenceIdeal.ReadP.val_main_v38_eq m c), (h c).2⟩)
    (Cert.ReferenceIdeal.ValueP.run m ρ)

end Cert.ReferenceIdeal.StagedRun

end
-- ==== Proof.Softplus.lean ====
/- The two-class log-softmax entry, negated, is the softplus of the signed logit difference; the square as a power. -/
import proofs.«414771_j81527069213369_2_alg».proof.Proof.Spec

noncomputable section

open Idealize.ShloMosaic Idealize.ShloMosaic.ValueIdx Idealize.SL.Sem
open scoped BigOperators

namespace Cert.Softplus
open Cert.Spec
/-- the running maximum the reference subtracts: a fold from the bottom over the two logits, joined once more with the bottom -/
def mx (a b : EReal) : EReal := max ⊥ (max (max ⊥ a) b)
/-- the reference's log-softmax entry of logit x among the two logits a b -/
def logSoftmax2 (a b x : EReal) : EReal := (x - mx a b) - Ideal.log (0 + (Ideal.exp (a - mx a b) + Ideal.exp (b - mx a b)))

/-- The embedding of the reals keeps the order, so it carries a maximum to the maximum of the images. -/
private theorem coe_max (x y : ℝ) : ((max x y : ℝ) : EReal) = max (x : EReal) (y : EReal) :=
  EReal.coe_strictMono.monotone.map_max

/-- Joining with the bottom changes nothing: on two reals the running maximum is their maximum. -/
theorem mx_coe (a b : ℝ) : mx (a : EReal) (b : EReal) = ((max a b : ℝ) : EReal) := by
  unfold mx
  rw [max_bot_left, max_bot_left, coe_max]

/-- On reals every entry of the log-softmax is real: the two exponentials are positive, so the logarithm of their sum
    is the real logarithm. -/
theorem logSoftmax2_coe (a b x : ℝ) :
    logSoftmax2 (a : EReal) (b : EReal) (x : EReal)
      = (((x - max a b) - Real.log (Real.exp (a - max a b) + Real.exp (b - max a b)) : ℝ) : EReal) := by
  have hpos : 0 < Real.exp (a - max a b) + Real.exp (b - max a b) := by positivity
  unfold logSoftmax2
  rw [mx_coe, zero_add]
  rw [show (x : EReal) - ((max a b : ℝ) : EReal) = ((x - max a b : ℝ) : EReal) from (EReal.coe_sub _ _).symm,
    show (a : EReal) - ((max a b : ℝ) : EReal) = ((a - max a b : ℝ) : EReal) from (EReal.coe_sub _ _).symm,
    show (b : EReal) - ((max a b : ℝ) : EReal) = ((b - max a b : ℝ) : EReal) from (EReal.coe_sub _ _).symm,
    Ideal.exp_coe, Ideal.exp_coe, ← EReal.coe_add, Ideal.log_coe, if_neg (not_le.mpr hpos), ← EReal.coe_sub]

/-- On a real the softplus is real: the exponential is positive, so one plus it has a real logarithm. -/
theorem softplus_coe (s : ℝ) :
    softplus (s : EReal) = ((max s 0 + Real.log (1 + Real.exp (0 - max s (-s))) : ℝ) : EReal) := by
  have hpos : 0 < 1 + Real.exp (0 - max s (-s)) := by positivity
  unfold softplus Ideal.log1p
  rw [sub_zero, ← EReal.coe_neg, ← coe_max, ← EReal.coe_zero, ← EReal.coe_sub, Ideal.exp_coe, ← EReal.coe_one,
    ← EReal.coe_add, Ideal.log_coe, if_neg (not_le.mpr hpos), ← coe_max, ← EReal.coe_add]

/-- Real form, class of the first logit. With d = b - a: if d ≥ 0 the maximum is b and the entry is
    d + log (e^(-d) + 1); if d ≤ 0 the maximum is a and it is log (1 + e^d). -/
private theorem real_left (a b : ℝ) :
    -((a - max a b) - Real.log (Real.exp (a - max a b) + Real.exp (b - max a b)))
      = max (b - a) 0 + Real.log (1 + Real.exp (0 - max (b - a) (-(b - a)))) := by
  rcases le_total a b with h | h
  · have hd : 0 ≤ b - a := sub_nonneg.mpr h
    rw [max_eq_right h, max_eq_left hd, max_eq_left (by linarith : -(b - a) ≤ b - a), sub_self, Real.exp_zero,
      show a - b = 0 - (b - a) by ring, add_comm (Real.exp _) 1]
    ring
  · have hd : b - a ≤ 0 := sub_nonpos.mpr h
    rw [max_eq_left h, max_eq_right hd, max_eq_right (by linarith : b - a ≤ -(b - a)), sub_self, Real.exp_zero,
      show 0 - -(b - a) = b - a by ring]
    ring

/-- Real form, class of the second logit: the mirror image, with s = -(b - a). -/
private theorem real_right (a b : ℝ) :
    -((b - max a b) - Real.log (Real.exp (a - max a b) + Real.exp (b - max a b)))
      = max (0 - (b - a)) 0 + Real.log (1 + Real.exp (0 - max (0 - (b - a)) (-(0 - (b - a))))) := by
  rcases le_total a b with h | h
  · have hd : 0 - (b - a) ≤ 0 := by linarith
    rw [max_eq_right h, max_eq_right hd, max_eq_right (by linarith : 0 - (b - a) ≤ -(0 - (b - a))), sub_self,
      Real.exp_zero, show 0 - -(0 - (b - a)) = a - b by ring, add_comm (Real.exp _) 1]
    ring
  · have hd : 0 ≤ 0 - (b - a) := by linarith
    rw [max_eq_left h, max_eq_left hd, max_eq_left (by linarith : -(0 - (b - a)) ≤ 0 - (b - a)), sub_self,
      Real.exp_zero, show 0 - (0 - (b - a)) = b - a by ring]
    ring

theorem neg_logSoftmax2_left (a b : ℝ) : -(logSoftmax2 a b a) = softplus ((b : EReal) - (a : EReal)) := by
  rw [logSoftmax2_coe, ← EReal.coe_neg, ← EReal.coe_sub, softplus_coe, real_left]

theorem neg_logSoftmax2_right (a b : ℝ) : -(logSoftmax2 a b b) = softplus (0 - ((b : EReal) - (a : EReal))) := by
  rw [logSoftmax2_coe, ← EReal.coe_neg, ← EReal.coe_sub, ← EReal.coe_zero, ← EReal.coe_sub, softplus_coe, real_right]

theorem softplus_real (s : ℝ) : ∃ r : ℝ, softplus (s : EReal) = (r : EReal) := ⟨_, softplus_coe s⟩

/-- The literal two of the extended reals is the image of the real two. -/
private theorem two_coe : (2 : EReal) = ((2 : ℝ) : EReal) := by norm_cast

theorem pow_two_eq_sq (c : ℝ) : Ideal.pow (1 - Ideal.exp (-(c : EReal))) 2 = (1 - Ideal.exp (0 - (c : EReal))) * (1 - Ideal.exp (0 - (c : EReal))) := by
  rw [zero_sub, ← EReal.coe_neg, Ideal.exp_coe, ← EReal.coe_one, ← EReal.coe_sub, two_coe, Ideal.pow_coe_coe,
    ← EReal.coe_mul, Real.rpow_eq_pow, Real.rpow_two, sq]
end Cert.Softplus

end
-- ==== Proof.Window.lean ====
/- The host's 5×5 window reduction, padded by two with the reduction's identity, is the separable window of five along rows then columns. -/
import proofs.«414771_j81527069213369_2_alg».proof.Proof.Spec
import Idealize.ShloMosaic.PureOps

noncomputable section

open Idealize.ShloMosaic Idealize.ShloMosaic.ValueIdx Idealize.SL.Sem
open scoped BigOperators

namespace Cert.Window
open Cert.Spec

/-- The window's own shape: one image, five rows, five columns. -/
abbrev W : Shape := ⟨3, ![1, 5, 5]⟩

/-- The window has twenty-five positions. -/
theorem W_numel : W.numel = 25 := by decide

/-- Position `m` of the window in row-major order lies in window row `m / 5` and window column `m % 5`. -/
theorem W_coords : ∀ m : Fin W.numel, (W.rowMajor.symm m 0).val = 0 ∧ (W.rowMajor.symm m 1).val = m.val / 5
    ∧ (W.rowMajor.symm m 2).val = m.val % 5 := by decide

/-- A left fold over all positions below twenty-five, written out position by position. -/
theorem foldl_finRange_25 {β : Type} (N : Nat) (hN : N = 25) (g : β → Fin N → β) (v : β) :
    (List.finRange N).foldl g v =
      g (g (g (g (g (g (g (g (g (g (g (g (g (g (g (g (g (g (g (g (g (g (g (g (g v
      ⟨0, by omega⟩) ⟨1, by omega⟩) ⟨2, by omega⟩) ⟨3, by omega⟩) ⟨4, by omega⟩)
      ⟨5, by omega⟩) ⟨6, by omega⟩) ⟨7, by omega⟩) ⟨8, by omega⟩) ⟨9, by omega⟩)
      ⟨10, by omega⟩) ⟨11, by omega⟩) ⟨12, by omega⟩) ⟨13, by omega⟩) ⟨14, by omega⟩)
      ⟨15, by omega⟩) ⟨16, by omega⟩) ⟨17, by omega⟩) ⟨18, by omega⟩) ⟨19, by omega⟩)
      ⟨20, by omega⟩) ⟨21, by omega⟩) ⟨22, by omega⟩) ⟨23, by omega⟩) ⟨24, by omega⟩ := by
  subst hN; rfl

section Laws

variable (op : EReal → EReal → EReal) (z : EReal)

/-- Five further entries folded onto an accumulator: by associativity and commutativity, the accumulator joined with
    the five entries' own fold, taken in the order third, first, second, fourth, fifth. -/
theorem fold5 (hassoc : ∀ a b c : EReal, op (op a b) c = op a (op b c)) (hcomm : ∀ a b : EReal, op a b = op b a)
    (acc a0 a1 a2 a3 a4 : EReal) :
    op (op (op (op (op acc a0) a1) a2) a3) a4 = op acc (op (op (op (op a2 a0) a1) a3) a4) := by
  have hlc : ∀ a b c : EReal, op a (op b c) = op b (op a c) := fun a b c => by
    rw [← hassoc, hcomm a b, hassoc]
  simp only [hassoc]
  rw [hlc a1 a2, hlc a0 a2]

/-- Offset 2 of the window of five is the centre itself, always inside the row. -/
theorem shiftOr_centre (f : Fin 1024 → EReal) (c : Fin 1024) : shiftOr z f c 2 = f c := by
  have hc := c.isLt
  have h : 2 ≤ c.val + (2 : Fin 5).val ∧ c.val + (2 : Fin 5).val - 2 < 1024 := by
    show 2 ≤ c.val + 2 ∧ c.val + 2 - 2 < 1024
    omega
  unfold shiftOr
  rw [dif_pos h]
  exact congrArg f (Fin.ext (by show c.val + 2 - 2 = c.val; omega))

/-- Inside the row, the shifted entry is the row's entry at the shifted position. -/
theorem shiftOr_pos (f : Fin 1024 → EReal) (c : Fin 1024) (k : Fin 5)
    (h : 2 ≤ c.val + k.val ∧ c.val + k.val - 2 < 1024) : shiftOr z f c k = f ⟨c.val + k.val - 2, h.2⟩ := dif_pos h

/-- Outside the row, the shifted entry is `z`. -/
theorem shiftOr_neg (f : Fin 1024 → EReal) (c : Fin 1024) (k : Fin 5)
    (h : ¬ (2 ≤ c.val + k.val ∧ c.val + k.val - 2 < 1024)) : shiftOr z f c k = z := dif_neg h

/-- Entry `(r + dr - 2, c + dc - 2)` of image `n`, and `z` where that position is outside the image. -/
def cell (x : SP.Idx → EReal) (n : Fin 16) (r c : Fin 1024) (dr dc : Nat) : EReal :=
  if h : (2 ≤ r.val + dr ∧ r.val + dr - 2 < 1024) ∧ (2 ≤ c.val + dc ∧ c.val + dc - 2 < 1024) then
    x (ix3 n ⟨r.val + dr - 2, h.1.2⟩ ⟨c.val + dc - 2, h.2.2⟩) else z

/-- On a row inside the image, a cell is the row's shifted entry. -/
theorem cell_in (x : SP.Idx → EReal) (n : Fin 16) (r c : Fin 1024) (dr : Nat)
    (hr : 2 ≤ r.val + dr ∧ r.val + dr - 2 < 1024) (k : Fin 5) :
    cell z x n r c dr k.val = shiftOr z (fun c' => x (ix3 n ⟨r.val + dr - 2, hr.2⟩ c')) c k := by
  unfold cell shiftOr
  by_cases hc : 2 ≤ c.val + k.val ∧ c.val + k.val - 2 < 1024
  · rw [dif_pos ⟨hr, hc⟩, dif_pos hc]
  · rw [dif_neg (fun h => hc h.2), dif_neg hc]

/-- On a row outside the image every cell is `z`. -/
theorem cell_out (x : SP.Idx → EReal) (n : Fin 16) (r c : Fin 1024) (dr dc : Nat)
    (hr : ¬ (2 ≤ r.val + dr ∧ r.val + dr - 2 < 1024)) : cell z x n r c dr dc = z := by
  unfold cell
  exact dif_neg (fun h => hr h.1)

/-- One window row's five cells folded in the order of `win5`: the centre, then offsets -2, -1, +1, +2. -/
def rowVal (x : SP.Idx → EReal) (n : Fin 16) (r c : Fin 1024) (dr : Nat) : EReal :=
  op (op (op (op (cell z x n r c dr 2) (cell z x n r c dr 0)) (cell z x n r c dr 1)) (cell z x n r c dr 3))
    (cell z x n r c dr 4)

/-- One window row's five cells folded onto an accumulator in row-major order. -/
def foldRow (x : SP.Idx → EReal) (n : Fin 16) (r c : Fin 1024) (acc : EReal) (dr : Nat) : EReal :=
  op (op (op (op (op acc (cell z x n r c dr 0)) (cell z x n r c dr 1)) (cell z x n r c dr 2)) (cell z x n r c dr 3))
    (cell z x n r c dr 4)

theorem foldRow_eq (hassoc : ∀ a b c : EReal, op (op a b) c = op a (op b c)) (hcomm : ∀ a b : EReal, op a b = op b a)
    (x : SP.Idx → EReal) (n : Fin 16) (r c : Fin 1024) (acc : EReal) (dr : Nat) :
    foldRow op z x n r c acc dr = op acc (rowVal op z x n r c dr) :=
  fold5 op hassoc hcomm acc _ _ _ _ _

/-- A window row's fold is the column window's shifted entry: the row's window of five when the row is inside the
    image, and `z` (five copies of the identity folded) when it is not. -/
theorem rowVal_eq (hid : ∀ a : EReal, op z a = a) (x : SP.Idx → EReal) (n : Fin 16) (r c : Fin 1024) (k : Fin 5) :
    rowVal op z x n r c k.val = shiftOr z (fun r' => win5 op z (fun c' => x (ix3 n r' c')) c) r k := by
  by_cases hr : 2 ≤ r.val + k.val ∧ r.val + k.val - 2 < 1024
  · have e := fun j : Fin 5 => cell_in z x n r c k.val hr j
    show op (op (op (op (cell z x n r c k.val (2 : Fin 5).val) (cell z x n r c k.val (0 : Fin 5).val))
      (cell z x n r c k.val (1 : Fin 5).val)) (cell z x n r c k.val (3 : Fin 5).val)) (cell z x n r c k.val (4 : Fin 5).val) = _
    rw [e 2, e 0, e 1, e 3, e 4, shiftOr_centre]
    exact (shiftOr_pos z (fun r' => win5 op z (fun c' => x (ix3 n r' c')) c) r k hr).symm
  · unfold rowVal
    rw [cell_out z x n r c k.val 2 hr, cell_out z x n r c k.val 0 hr, cell_out z x n r c k.val 1 hr,
      cell_out z x n r c k.val 3 hr, cell_out z x n r c k.val 4 hr, hid, hid, hid, hid]
    exact (shiftOr_neg z _ r k hr).symm

/-- The entry the window reduction reads at a window position with image coordinates `p`: the cell of that position. -/
theorem elt_eq (x : SP.Idx → EReal) (n : Fin 16) (r c : Fin 1024) (dr dc : Nat) (p : Fin 3 → Nat)
    (hp0 : p 0 = n.val) (hp1 : p 1 = r.val + dr) (hp2 : p 2 = c.val + dc) :
    (if hin : ∀ a : Fin 3, (![0, 2, 2] : Fin 3 → Nat) a ≤ p a ∧ p a - (![0, 2, 2] : Fin 3 → Nat) a < SP.size a then
        x (fun a => ⟨p a - (![0, 2, 2] : Fin 3 → Nat) a, (hin a).2⟩) else z)
      = cell z x n r c dr dc := by
  have hn := n.isLt
  unfold cell
  by_cases hc : (2 ≤ r.val + dr ∧ r.val + dr - 2 < 1024) ∧ (2 ≤ c.val + dc ∧ c.val + dc - 2 < 1024)
  · have hin : ∀ a : Fin 3, (![0, 2, 2] : Fin 3 → Nat) a ≤ p a ∧ p a - (![0, 2, 2] : Fin 3 → Nat) a < SP.size a := by
      intro a
      match a with
      | ⟨0, _⟩ => show 0 ≤ p 0 ∧ p 0 - 0 < 16; rw [hp0]; omega
      | ⟨1, _⟩ => show 2 ≤ p 1 ∧ p 1 - 2 < 1024; rw [hp1]; exact hc.1
      | ⟨2, _⟩ => show 2 ≤ p 2 ∧ p 2 - 2 < 1024; rw [hp2]; exact hc.2
    rw [dif_pos hin, dif_pos hc]
    congr 1
    funext a
    match a with
    | ⟨0, _⟩ => exact Fin.ext (by show p 0 - 0 = n.val; rw [hp0]; rfl)
    | ⟨1, _⟩ => exact Fin.ext (by show p 1 - 2 = r.val + dr - 2; rw [hp1])
    | ⟨2, _⟩ => exact Fin.ext (by show p 2 - 2 = c.val + dc - 2; rw [hp2])
  · have hnin : ¬ ∀ a : Fin 3, (![0, 2, 2] : Fin 3 → Nat) a ≤ p a ∧ p a - (![0, 2, 2] : Fin 3 → Nat) a < SP.size a :=
      fun hin => hc ⟨by have h1 := hin 1; rw [hp1] at h1; exact h1, by have h2 := hin 2; rw [hp2] at h2; exact h2⟩
    rw [dif_neg hnin, dif_neg hc]

/-- The 5×5 window reduction, padded by two with the identity of an associative and commutative operation, is the
    window of five along each row, then along the column. -/
theorem window (hassoc : ∀ a b c : EReal, op (op a b) c = op a (op b c)) (hcomm : ∀ a b : EReal, op a b = op b a)
    (hid : ∀ a : EReal, op z a = a) (x : SP.Idx → EReal) (init : (⟨0, ![]⟩ : Shape).Idx → EReal)
    (h : SP.ReduceWindows ![1, 5, 5] ![1, 1, 1] ![0, 2, 2] ![0, 2, 2] SP) (hu : 0 < (⟨0, ![]⟩ : Shape).numel)
    (hinit : init (Shape.Idx.first hu) = z) (n : Fin 16) (r c : Fin 1024) :
    Host.reduceWindow op ![1, 5, 5] ![1, 1, 1] ![0, 2, 2] ![0, 2, 2] x init h hu (ix3 n r c)
      = win5 op z (fun r' => win5 op z (fun c' => x (ix3 n r' c')) c) r := by
  unfold Host.reduceWindow
  dsimp only
  rw [hinit]
  refine (List.foldl_ext _ (fun acc (m : Fin W.numel) => op acc (cell z x n r c (m.val / 5) (m.val % 5))) _ ?_).trans ?_
  · intro acc m _
    have hm := W_coords m
    refine congrArg (op acc) (elt_eq z x n r c (m.val / 5) (m.val % 5) _ ?_ ?_ ?_)
    · show n.val * 1 + (W.rowMajor.symm m 0).val = n.val
      omega
    · show r.val * 1 + (W.rowMajor.symm m 1).val = r.val + m.val / 5
      omega
    · show c.val * 1 + (W.rowMajor.symm m 2).val = c.val + m.val % 5
      omega
  · refine (foldl_finRange_25 W.numel W_numel _ _).trans ?_
    show foldRow op z x n r c (foldRow op z x n r c (foldRow op z x n r c (foldRow op z x n r c
      (foldRow op z x n r c z 0) 1) 2) 3) 4 = _
    simp only [foldRow_eq op z hassoc hcomm]
    rw [fold5 op hassoc hcomm, hid]
    have e0 : rowVal op z x n r c 0 = _ := rowVal_eq op z hid x n r c 0
    have e1 : rowVal op z x n r c 1 = _ := rowVal_eq op z hid x n r c 1
    have e2 : rowVal op z x n r c 2 = _ := rowVal_eq op z hid x n r c 2
    have e3 : rowVal op z x n r c 3 = _ := rowVal_eq op z hid x n r c 3
    have e4 : rowVal op z x n r c 4 = _ := rowVal_eq op z hid x n r c 4
    rw [e0, e1, e2, e3, e4, shiftOr_centre]
    rfl

end Laws

theorem reduceWindow_max (x : SP.Idx → EReal) (init : (⟨0, ![]⟩ : Shape).Idx → EReal)
    (h : SP.ReduceWindows ![1, 5, 5] ![1, 1, 1] ![0, 2, 2] ![0, 2, 2] SP) (hu : 0 < (⟨0, ![]⟩ : Shape).numel)
    (hinit : init (Shape.Idx.first hu) = ⊥) (n : Fin 16) (r c : Fin 1024) :
    Host.reduceWindow (FloatOps.maximumf (F := Ideal) (φ := .f32)) ![1, 5, 5] ![1, 1, 1] ![0, 2, 2] ![0, 2, 2] x init h hu (ix3 n r c)
      = dilP (fun r' c' => x (ix3 n r' c')) r c :=
  window max ⊥ max_assoc max_comm (fun a => max_bot_left a) x init h hu hinit n r c

theorem reduceWindow_min (x : SP.Idx → EReal) (init : (⟨0, ![]⟩ : Shape).Idx → EReal)
    (h : SP.ReduceWindows ![1, 5, 5] ![1, 1, 1] ![0, 2, 2] ![0, 2, 2] SP) (hu : 0 < (⟨0, ![]⟩ : Shape).numel)
    (hinit : init (Shape.Idx.first hu) = ⊤) (n : Fin 16) (r c : Fin 1024) :
    Host.reduceWindow (FloatOps.minimumf (F := Ideal) (φ := .f32)) ![1, 5, 5] ![1, 1, 1] ![0, 2, 2] ![0, 2, 2] x init h hu (ix3 n r c)
      = eroP (fun r' c' => x (ix3 n r' c')) r c :=
  window min ⊤ min_assoc min_comm (fun a => min_top_left a) x init h hu hinit n r c

end Cert.Window

end
-- ==== Proof.RefPix.lean ====
/- The reference's result, read stage by stage at an index, is the loss. -/
import proofs.«414771_j81527069213369_2_alg».proof.Proof.RefRead
import proofs.«414771_j81527069213369_2_alg».proof.Proof.Spec
import proofs.«414771_j81527069213369_2_alg».proof.Proof.Softplus
import proofs.«414771_j81527069213369_2_alg».proof.Proof.Window
import Idealize.ShloMosaic.PureOps.Reduce
import Idealize.ShloMosaic.Lib.Affine

noncomputable section

open Idealize.ShloMosaic Idealize.ShloMosaic.ValueIdx Idealize.SL.Sem
open scoped BigOperators

namespace Cert.ReferenceIdeal.Pix
open Cert.ReferenceIdeal Cert.ReferenceIdeal.Gen Cert.Spec Cert.ReferenceIdeal.ReadP

/-! ### Words -/

theorem uitofp_zero : FloatOps.uitofp (F := Ideal) .f32 (0#1) = (0 : EReal) := by
  show (((0#1 : BitVec 1).toNat : ℝ) : EReal) = 0
  simp

theorem uitofp_one : FloatOps.uitofp (F := Ideal) .f32 (1#1) = (1 : EReal) := by
  show (((1#1 : BitVec 1).toNat : ℝ) : EReal) = 1
  simp

theorem valid_word (t : BitVec 32) : FloatOps.uitofp (F := Ideal) .f32 (IntOp.cmpi .ne t 255#32) = validP t := by
  unfold validP
  by_cases h : t = 255#32
  · rw [if_pos h]
    have e : IntOp.cmpi .ne t 255#32 = 0#1 := eq_zero_of_ne_one fun h1 => (IntOp.cmpi_ne.1 h1) h
    rw [e, uitofp_zero]
  · rw [if_neg h]
    have e : IntOp.cmpi .ne t 255#32 = 1#1 := IntOp.cmpi_ne.2 h
    rw [e, uitofp_one]

theorem road_word (t : BitVec 32) : FloatOps.uitofp (F := Ideal) .f32 (IntOp.cmpi .eq t 1#32) = roadP t := by
  unfold roadP
  by_cases h : t = 1#32
  · rw [if_pos h]
    have e : IntOp.cmpi .eq t 1#32 = 1#1 := IntOp.cmpi_eq.2 h
    rw [e, uitofp_one]
  · rw [if_neg h]
    have e : IntOp.cmpi .eq t 1#32 = 0#1 := eq_zero_of_ne_one fun h1 => h (IntOp.cmpi_eq.1 h1)
    rw [e, uitofp_zero]

/-- the class index the reference gathers at: the label where the pixel counts and 0 where it is ignored, a negative
    index wrapped by the class count -/
def lab (t : BitVec 32) : BitVec 32 :=
  Scalar.select (IntOp.cmpi .slt (Scalar.select (IntOp.cmpi .ne t 255#32) t 0#32) 0#32)
    (IntOp.addi (Scalar.select (IntOp.cmpi .ne t 255#32) t 0#32) 2#32)
    (Scalar.select (IntOp.cmpi .ne t 255#32) t 0#32)

theorem lab_zero : lab 0#32 = 0#32 := by decide
theorem lab_one : lab 1#32 = 1#32 := by decide
theorem lab_ignore : lab 255#32 = 0#32 := by decide

/-! ### Index arithmetic -/

theorem idx_v6_ix3 (n : Fin 16) (r c : Fin 1024) : idx_main_v6 (ix3 n r c) = ix4 n (0 : Fin 1) r c := by
  funext a; apply Fin.ext
  have hn := n.isLt; have hr := r.isLt; have hc := c.isLt
  match a with
  | ⟨0, _⟩ => show ((n.val * 1024 + r.val) * 1024 + c.val) / 1048576 = n.val; omega
  | ⟨1, _⟩ => rfl
  | ⟨2, _⟩ => show ((n.val * 1024 + r.val) * 1024 + c.val) / 1024 % 1024 = r.val; omega
  | ⟨3, _⟩ => show ((n.val * 1024 + r.val) * 1024 + c.val) % 1024 = c.val; omega

theorem idx_v4_v5_ix5 (n : Fin 16) (r c : Fin 1024) :
    idx_main_v4 (idx_main_call2_v5 (ix5 n (0 : Fin 1) r c (0 : Fin 1))) = ix3 n r c := by
  funext a; apply Fin.ext
  have hn := n.isLt; have hr := r.isLt; have hc := c.isLt
  match a with
  | ⟨0, _⟩ => show ((((n.val * 1 + 0) * 1024 + r.val) * 1024 + c.val) * 1 + 0) / 1048576 = n.val; omega
  | ⟨1, _⟩ => show ((((n.val * 1 + 0) * 1024 + r.val) * 1024 + c.val) * 1 + 0) / 1024 % 1024 = r.val; omega
  | ⟨2, _⟩ => show ((((n.val * 1 + 0) * 1024 + r.val) * 1024 + c.val) * 1 + 0) % 1024 = c.val; omega

theorem idx_call1_v3_v4 (n : Fin 16) (k : Fin 2) (r c : Fin 1024) :
    idx_main_call1_v3 (idx_main_call1_v4 (ix4 n k r c)) = ix3 n r c := by
  funext a
  match a with
  | ⟨0, _⟩ => rfl
  | ⟨1, _⟩ => rfl
  | ⟨2, _⟩ => rfl

theorem idx_call1_v8_v10 (n : Fin 16) (k : Fin 2) (r c : Fin 1024) :
    idx_main_call1_v8 (idx_main_call1_v10 (ix4 n k r c)) = ix3 n r c := by
  funext a
  match a with
  | ⟨0, _⟩ => rfl
  | ⟨1, _⟩ => rfl
  | ⟨2, _⟩ => rfl

theorem idx_call1_v7_ix3 (n : Fin 16) (r c : Fin 1024) (k : Fin 2) :
    idx_main_call1_v7 (ix3 n r c) k = ix4 n k r c := by
  funext a
  match a with
  | ⟨0, _⟩ => rfl
  | ⟨1, _⟩ => rfl
  | ⟨2, _⟩ => rfl
  | ⟨3, _⟩ => rfl

/-! ### The class index at a pixel -/

theorem call2_v5_apply (T : SP.Idx → BitVec 32) (i : S16x1x1024x1024x1.Idx) :
    val_main_call2_v5 (F := Ideal) T i = lab (T (idx_main_v4 (idx_main_call2_v5 i))) := by
  rw [val_main_call2_v5_apply, val_main_call2_v4_apply, val_main_call2_v1_apply, val_main_call2_v3_apply,
    val_main_v4_apply, val_main_v2_apply, val_main_v1_apply, val_main_v0_apply, val_main_c_apply,
    val_main_call0_v1_apply, val_main_call0_v0_apply, val_main_c_0_apply, val_main_call2_v0_apply,
    val_main_call2_c_apply, val_main_call2_v2_apply, val_main_call2_c_0_apply]
  rfl

theorem lab_cases (t : BitVec 32) (ht : t = 0#32 ∨ t = 1#32 ∨ t = 255#32) :
    lab t = (if t = 1#32 then 1#32 else 0#32) := by
  rcases ht with h | h | h <;> subst h <;> decide

/-- every entry of the in-range test is 1 -/
theorem call2_v11_one (T : SP.Idx → BitVec 32) (hT : ∀ j, T j = 0#32 ∨ T j = 1#32 ∨ T j = 255#32)
    (i : S16x1x1024x1024x1.Idx) : val_main_call2_v11 (F := Ideal) T i = 1#1 := by
  rw [val_main_call2_v11_apply, val_main_call2_v7_apply, val_main_call2_v10_apply, call2_v5_apply,
    val_main_call2_v6_apply, val_main_call2_c_2_apply, val_main_call2_v9_apply, val_main_call2_v8_apply,
    val_main_call2_c_1_apply, lab_cases _ (hT _)]
  by_cases h : T (idx_main_v4 (idx_main_call2_v5 i)) = 1#32
  · rw [if_pos h]; decide
  · rw [if_neg h]; decide

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

theorem call2_v12_one (T : SP.Idx → BitVec 32) (hT : ∀ j, T j = 0#32 ∨ T j = 1#32 ∨ T j = 255#32)
    (j : S16x1x1024x1024.Idx) : val_main_call2_v12 (F := Ideal) T j = 1#1 := by
  unfold val_main_call2_v12
  rw [Host.reduce_eq_foldl]
  rw [show val_main_call2_c_3 (F := Ideal) (Shape.Idx.first h_S_) = 1#1 from rfl]
  exact foldl_andi_ones _ (call2_v11_one T hT) _

/-! ### The running maximum over the two classes -/

theorem reduces_class : S16x2x1024x1024.Reduces [1] S16x1024x1024 := by decide

theorem lift_class (h : S16x2x1024x1024.Reduces [1] S16x1024x1024) (n : Fin 16) (r c : Fin 1024)
    (k : Fin (S16x2x1024x1024.size 1)) : h.lift (ix3 n r c) k = ix4 n (⟨k.val, k.isLt⟩ : Fin 2) r c := by
  funext a; apply Fin.ext
  match a with
  | ⟨0, _⟩ => rfl
  | ⟨1, _⟩ => rfl
  | ⟨2, _⟩ => rfl
  | ⟨3, _⟩ => rfl

theorem fold_univ_fin2 {α : Type} (op : α → α → α) [Std.Commutative op] [Std.Associative op] (b : α) (f : Fin 2 → α) :
    (Finset.univ : Finset (Fin 2)).fold op b f = op (f 0) (op (f 1) b) := by
  rw [show (Finset.univ : Finset (Fin 2)) = insert 0 {1} from by decide]
  rw [Finset.fold_insert (by decide), Finset.fold_singleton]

/-- from the bottom, the fold of the maximum over the class axis at a pixel is the maximum of the two logits there -/
theorem reduce_max_class (x : FVec Ideal S16x2x1024x1024 .f32) (init : FVec Ideal S_ .f32)
    (h' : S16x2x1024x1024.ReducesTo [1] S16x1024x1024) (hu : 0 < S_.numel)
    (hinit : init (Shape.Idx.first hu) = ⊥) (n : Fin 16) (r c : Fin 1024) :
    Host.reduce FloatOps.maximumf x init h' hu (ix3 n r c) = max (max ⊥ (x (ix4 n 0 r c))) (x (ix4 n 1 r c)) := by
  rw [Host.reduce_eq_fold_single FloatOps.maximumf x init h' reduces_class hu, hinit]
  have e := fold_univ_fin2 (FloatOps.maximumf (F := Ideal) (φ := .f32)) ⊥ (fun k : Fin 2 => x (ix4 n k r c))
  have hf : (x ∘ reduces_class.lift (ix3 n r c)) = fun k : Fin 2 => x (ix4 n k r c) :=
    funext fun k => congrArg x (lift_class _ n r c k)
  refine (congrArg (fun f => Finset.fold (FloatOps.maximumf (F := Ideal) (φ := .f32)) ⊥ f (Finset.univ : Finset (Fin 2))) hf).trans ?_
  rw [e]
  simp only [Ideal.maximumf_def, max_bot_right, max_bot_left]

theorem call1_v0_ix3 (X : SX.Idx → EReal) (n : Fin 16) (r c : Fin 1024) :
    val_main_call1_v0 (F := Ideal) X (ix3 n r c) = max (max ⊥ (X (ix4 n 0 r c))) (X (ix4 n 1 r c)) := by
  unfold val_main_call1_v0
  exact reduce_max_class X _ _ _ ofBits_neg_inf n r c

theorem call1_v4_ix4 (X : SX.Idx → EReal) (n : Fin 16) (k : Fin 2) (r c : Fin 1024) :
    val_main_call1_v4 (F := Ideal) X (ix4 n k r c) = Cert.Softplus.mx (X (ix4 n 0 r c)) (X (ix4 n 1 r c)) := by
  rw [val_main_call1_v4_apply, val_main_call1_v3_apply, idx_call1_v3_v4, val_main_call1_v2_apply,
    val_main_call1_v1_apply, val_main_call1_cst_0_apply, call1_v0_ix3]
  show max (Ideal.ofBits .f32 0xFF800000#32) _ = _
  rw [ofBits_neg_inf]
  rfl

theorem v3_ix4 (X : SX.Idx → EReal) (n : Fin 16) (k : Fin 2) (r c : Fin 1024) :
    val_main_v3 (F := Ideal) X (ix4 n k r c)
      = Cert.Softplus.logSoftmax2 (X (ix4 n 0 r c)) (X (ix4 n 1 r c)) (X (ix4 n k r c)) := by
  rw [val_main_v3_apply, val_main_call1_v10_apply, val_main_call1_v9_apply, val_main_call1_v8_apply,
    idx_call1_v8_v10, val_main_call1_v7_apply, Fin.sum_univ_two, idx_call1_v7_ix3, idx_call1_v7_ix3]
  simp only [val_main_call1_v6_apply, val_main_call1_v5_apply, call1_v4_ix4, val_main_call1_cst_1_apply]
  unfold Cert.Softplus.logSoftmax2
  rw [← ofBits_zero]
  rfl

/-! ### The gather along the class axis -/

theorem val_cast_at {S : Shape} (j : S.Idx) {a : Fin S.rank} (b : Fin S.rank) (h : a = b) {m : Nat} (e : S.size a = m) :
    (Fin.cast e (j a)).val = (j b).val := by subst h; rfl

/-- the start-indices entry a pixel's gather reads: the pixel's own, on the unit axes 0 -/
theorem gather_siIdx (n : Fin 16) (r c : Fin 1024) :
    gather_S16x2x1024x1024_S16x1x1024x1024x1_S16x1x1024x1024_n_1_023_023_1_4_1111.siIdx (ix4 n (0 : Fin 1) r c) ⟨0, by decide⟩ = ix5 n (0 : Fin 1) r c (0 : Fin 1) := by
  funext b; apply Fin.ext
  fin_cases b <;>
    simp [GatherDims.siIdx, GatherDims.siCoord, gather_S16x2x1024x1024_S16x1x1024x1024x1_S16x1x1024x1024_n_1_023_023_1_4_1111, GatherDims.siKept, GatherDims.batchDims, Shape.kept]
  · exact val_cast_at (ix4 n (0 : Fin 1) r c) 0 (by decide) _
  · exact val_cast_at (ix4 n (0 : Fin 1) r c) 2 (by decide) _
  · exact val_cast_at (ix4 n (0 : Fin 1) r c) 3 (by decide) _

/-- the gather reads, at a pixel, the operand's entry of the class its start index names, clamped into the two classes:
    the image, row and column are batching axes and pass through, the class axis is the one indexed and collapsed -/
theorem gather_class {α : Type} (x : S16x2x1024x1024.Idx → α) (idx : IVec S16x1x1024x1024x1 32) (n : Fin 16) (r c : Fin 1024) :
    Host.gather gather_S16x2x1024x1024_S16x1x1024x1024x1_S16x1x1024x1024_n_1_023_023_1_4_1111 x idx (ix4 n (0 : Fin 1) r c)
      = x (ix4 n (⟨min (idx (ix5 n (0 : Fin 1) r c (0 : Fin 1))).toInt.toNat 1, by omega⟩ : Fin 2) r c) := by
  unfold Host.gather
  congr 1
  funext a; apply Fin.ext
  fin_cases a <;>
    simp [GatherDims.operandIdx, GatherDims.start, GatherDims.offCoord, GatherDims.batchCoord, GatherDims.siCoord,
      gather_S16x2x1024x1024_S16x1x1024x1024x1_S16x1x1024x1024_n_1_023_023_1_4_1111, GatherDims.sKept, GatherDims.siKept,
      GatherDims.batchDims, Shape.kept]
  · exact val_cast_at (ix4 n (0 : Fin 1) r c) 0 (by decide) _
  · congr 4
    exact gather_siIdx n r c
  · exact val_cast_at (ix4 n (0 : Fin 1) r c) 2 (by decide) _
  · exact val_cast_at (ix4 n (0 : Fin 1) r c) 3 (by decide) _

/-! ### The per-pixel stages -/

theorem v8_at (T : SP.Idx → BitVec 32) (j : SP.Idx) : val_main_v8 (F := Ideal) T j = validP (T j) := by
  rw [val_main_v8_apply, val_main_v1_apply, val_main_v0_apply, val_main_c_apply]
  exact valid_word (T j)

theorem v22_at (T : SP.Idx → BitVec 32) (j : SP.Idx) : val_main_v22 (F := Ideal) T j = roadP (T j) := by
  rw [val_main_v22_apply, val_main_v21_apply, val_main_v20_apply, val_main_c_4_apply]
  exact road_word (T j)

/-- the gathered log-softmax entry at a pixel is the one of class `k`, once the clamped class index is known to be `k` -/
theorem v13_ix4 (X : SX.Idx → EReal) (T : SP.Idx → BitVec 32) (n : Fin 16) (r c : Fin 1024) (k : Fin 2)
    (hk : min (lab (T (ix3 n r c))).toInt.toNat 1 = k.val) :
    val_main_call2_v13 (F := Ideal) X T (ix4 n (0 : Fin 1) r c)
      = Cert.Softplus.logSoftmax2 (X (ix4 n 0 r c)) (X (ix4 n 1 r c)) (X (ix4 n k r c)) := by
  unfold val_main_call2_v13
  refine (gather_class _ _ n r c).trans ?_
  have hq : (⟨min (val_main_call2_v5 (F := Ideal) T (ix5 n (0 : Fin 1) r c (0 : Fin 1))).toInt.toNat 1,
      Nat.lt_succ_of_le (Nat.min_le_right _ _)⟩ : Fin 2) = k :=
    Fin.ext (by
      show min (val_main_call2_v5 (F := Ideal) T (ix5 n (0 : Fin 1) r c (0 : Fin 1))).toInt.toNat 1 = k.val
      rw [call2_v5_apply, idx_v4_v5_ix5]; exact hk)
  exact (congrArg (fun q : Fin 2 => val_main_v3 (F := Ideal) X (ix4 n q r c)) hq).trans (v3_ix4 X n k r c)

/-- the cross entropy stage at a pixel -/
theorem v7_ix3 (X : SX.Idx → EReal) (T : SP.Idx → BitVec 32)
    (hX : ∀ i, ∃ r : ℝ, X i = (r : EReal)) (hT : ∀ j, T j = 0#32 ∨ T j = 1#32 ∨ T j = 255#32)
    (n : Fin 16) (r c : Fin 1024) : val_main_v7 (F := Ideal) X T (ix3 n r c) = ceAt X T n r c := by
  rw [val_main_v7_apply, val_main_v6_apply, idx_v6_ix3, val_main_v5_apply, call2_v12_one T hT, select_one]
  obtain ⟨a, ha⟩ := hX (ix4 n 0 r c)
  obtain ⟨b, hb⟩ := hX (ix4 n 1 r c)
  unfold ceAt ceP signedDiff
  by_cases h : T (ix3 n r c) = 1#32
  · rw [v13_ix4 X T n r c 1 (by rw [h]; decide), if_pos h, ha, hb]
    exact Cert.Softplus.neg_logSoftmax2_right a b
  · have hl : lab (T (ix3 n r c)) = 0#32 := by rw [lab_cases _ (hT _), if_neg h]
    rw [v13_ix4 X T n r c 0 (by rw [hl]; decide), if_neg h, ha, hb]
    exact Cert.Softplus.neg_logSoftmax2_left a b

/-- the cross entropy at a pixel is a real number -/
theorem ce_real (X : SX.Idx → EReal) (T : SP.Idx → BitVec 32) (hX : ∀ i, ∃ r : ℝ, X i = (r : EReal))
    (n : Fin 16) (r c : Fin 1024) : ∃ e : ℝ, ceAt X T n r c = (e : EReal) := by
  obtain ⟨a, ha⟩ := hX (ix4 n 0 r c)
  obtain ⟨b, hb⟩ := hX (ix4 n 1 r c)
  unfold ceAt ceP signedDiff
  rw [ha, hb]
  by_cases h : T (ix3 n r c) = 1#32
  · rw [if_pos h, ← EReal.coe_sub, ← EReal.coe_zero, ← EReal.coe_sub]
    exact Cert.Softplus.softplus_real _
  · rw [if_neg h, ← EReal.coe_sub]
    exact Cert.Softplus.softplus_real _

/-- the focal stage at a pixel -/
theorem v17_ix3 (X : SX.Idx → EReal) (T : SP.Idx → BitVec 32)
    (hX : ∀ i, ∃ r : ℝ, X i = (r : EReal)) (hT : ∀ j, T j = 0#32 ∨ T j = 1#32 ∨ T j = 255#32)
    (n : Fin 16) (r c : Fin 1024) : val_main_v17 (F := Ideal) X T (ix3 n r c) = focalAt X T n r c := by
  rw [val_main_v17_apply, val_main_v16_apply, val_main_v15_apply, val_main_v13_apply, val_main_v12_apply,
    val_main_cst_1_apply, val_main_v11_apply, val_main_v10_apply, val_main_v14_apply, val_main_cst_2_apply,
    v8_at, v7_ix3 X T hX hT]
  obtain ⟨e, he⟩ := ce_real X T hX n r c
  unfold focalAt focalOf
  rw [he]
  show Ideal.pow (Ideal.ofBits .f32 0x3F800000#32 - Ideal.exp (-(e : EReal))) (Ideal.ofBits .f32 0x40000000#32) * (e : EReal)
      * validP (T (ix3 n r c)) = _
  rw [ofBits_one, ofBits_two, Cert.Softplus.pow_two_eq_sq]

theorem v23_first : val_main_v23 (F := Ideal) (Shape.Idx.first h_S_) = ⊥ := by
  rw [val_main_v23_apply, val_main_cst_5_apply]
  exact ofBits_neg_inf

theorem v25_first : val_main_v25 (F := Ideal) (Shape.Idx.first h_S_) = ⊤ := by
  rw [val_main_v25_apply, val_main_cst_6_apply]
  exact ofBits_pos_inf

/-- the 5×5 maximum of the label-1 indicator at a pixel -/
theorem v24_ix3 (T : SP.Idx → BitVec 32) (n : Fin 16) (r c : Fin 1024) :
    val_main_v24 (F := Ideal) T (ix3 n r c) = dilP (roadAt T n) r c := by
  unfold val_main_v24
  refine (Cert.Window.reduceWindow_max _ _ _ _ v23_first n r c).trans ?_
  congr 1
  funext r' c'
  exact v22_at T _

/-- the 5×5 minimum of the label-1 indicator at a pixel -/
theorem v26_ix3 (T : SP.Idx → BitVec 32) (n : Fin 16) (r c : Fin 1024) :
    val_main_v26 (F := Ideal) T (ix3 n r c) = eroP (roadAt T n) r c := by
  unfold val_main_v26
  refine (Cert.Window.reduceWindow_min _ _ _ _ v25_first n r c).trans ?_
  congr 1
  funext r' c'
  exact v22_at T _

/-- the boundary stage at a pixel -/
theorem v33_ix3 (X : SX.Idx → EReal) (T : SP.Idx → BitVec 32)
    (hX : ∀ i, ∃ r : ℝ, X i = (r : EReal)) (hT : ∀ j, T j = 0#32 ∨ T j = 1#32 ∨ T j = 255#32)
    (n : Fin 16) (r c : Fin 1024) : val_main_v33 (F := Ideal) X T (ix3 n r c) = boundAt X T n r c := by
  rw [val_main_v33_apply, val_main_v32_apply, val_main_v31_apply, val_main_v30_apply, val_main_cst_8_apply,
    val_main_v29_apply, val_main_v28_apply, val_main_cst_7_apply, val_main_v27_apply, v24_ix3, v26_ix3,
    v8_at, v7_ix3 X T hX hT]
  unfold boundAt boundOf
  show ceAt X T n r c * (Ideal.ofBits .f32 0x3F800000#32 + (dilP (roadAt T n) r c - eroP (roadAt T n) r c) * Ideal.ofBits .f32 0x3F800000#32)
      * validP (T (ix3 n r c)) = _
  rw [ofBits_one]

/-! ### The three sums over every pixel -/

theorem v9_ix0 (T : SP.Idx → BitVec 32) :
    val_main_v9 (F := Ideal) T ix0 = total fun n r c => validP (T (ix3 n r c)) := by
  rw [val_main_v9_apply, val_main_cst_apply]
  unfold total
  refine congrArg₂ (· + ·) ofBits_zero (Finset.sum_congr rfl fun j _ => ?_)
  rw [v8_at]
  exact congrArg (fun i => validP (T i)) (eq_ix3 j)

theorem v18_ix0 (X : SX.Idx → EReal) (T : SP.Idx → BitVec 32)
    (hX : ∀ i, ∃ r : ℝ, X i = (r : EReal)) (hT : ∀ j, T j = 0#32 ∨ T j = 1#32 ∨ T j = 255#32) :
    val_main_v18 (F := Ideal) X T ix0 = total (focalAt X T) := by
  rw [val_main_v18_apply, val_main_cst_3_apply]
  unfold total
  refine congrArg₂ (· + ·) ofBits_zero (Finset.sum_congr rfl fun j _ => ?_)
  exact (congrArg (val_main_v17 (F := Ideal) X T) (eq_ix3 j)).trans (v17_ix3 X T hX hT (j 0) (j 1) (j 2))

theorem v34_ix0 (X : SX.Idx → EReal) (T : SP.Idx → BitVec 32)
    (hX : ∀ i, ∃ r : ℝ, X i = (r : EReal)) (hT : ∀ j, T j = 0#32 ∨ T j = 1#32 ∨ T j = 255#32) :
    val_main_v34 (F := Ideal) X T ix0 = total (boundAt X T) := by
  rw [val_main_v34_apply, val_main_cst_9_apply]
  unfold total
  refine congrArg₂ (· + ·) ofBits_zero (Finset.sum_congr rfl fun j _ => ?_)
  exact (congrArg (val_main_v33 (F := Ideal) X T) (eq_ix3 j)).trans (v33_ix3 X T hX hT (j 0) (j 1) (j 2))

/-! ### The scalar tail -/

theorem val_main_v38_eq_loss (X : SX.Idx → EReal) (T : SP.Idx → BitVec 32)
    (hX : ∀ i, ∃ r : ℝ, X i = (r : EReal)) (hT : ∀ j, T j = 0#32 ∨ T j = 1#32 ∨ T j = 255#32) :
    Cert.ReferenceIdeal.ReadP.val_main_v38 (F := Ideal) X T ix0 = loss X T := by
  rw [val_main_v38_apply, val_main_v36_apply, val_main_v37_apply, val_main_v19_apply, val_main_v35_apply,
    val_main_cst_10_apply, val_main_cst_11_apply, v18_ix0 X T hX hT, v34_ix0 X T hX hT, v9_ix0]
  unfold loss
  show Ideal.ofBits .f32 0x3F800000#32 * Ideal.div _ _ + Ideal.ofBits .f32 0x3F000000#32 * Ideal.div _ _ = _
  rw [ofBits_one]

end Cert.ReferenceIdeal.Pix

end
-- ==== Proof.lean ====
/-
  A segmentation loss — the mean focal term plus half the mean boundary-weighted cross entropy over the pixels whose
  label is not the ignore label — computed by a kernel that takes one image per grid point and by a reference that
  works on all sixteen images at once.

  Both programs end with the same extended real. Pixel by pixel they agree: the kernel's cross entropy is a softplus
  of the signed logit difference, the reference's the negated entry of the two-class log-softmax picked by the label,
  equal for finite logits and labels 0, 1 or 255 (Proof/Softplus.lean); the kernel squares `1 - e^{-ce}` where the
  reference raises it to the power two; the kernel's 5×5 maximum and minimum of the label-1 indicator are built from
  masked rotations along the rows and then the columns, the reference's by one window reduction padded with the
  reduction's identity (Proof/Window.lean, Proof/KernelMorph.lean). The kernel adds each image's terms row by row and
  the host adds the sixteen images' sums; the reference adds every pixel's term in one sum: sums of extended reals
  regroup freely. What the precondition contributes: every logit finite, every label 0, 1 or 255 (Proof/PreFacts.lean).

  Proof/Spec.lean states the loss; Proof/KernelValue.lean reads the kernel's run to it (over Proof/KernelPix.lean's
  reading of the body's three results); Proof/RefRun.lean is the reference's run over its stages and Proof/RefPix.lean
  reads the last stage to the loss. The three frames: the two kernels' are the generated ones, the reference's its run
  with the result dropped. No operation was rewritten by the idealization, so that conjunct is trivial.
-/
import proofs.«414771_j81527069213369_2_alg».proof.Defs
import proofs.«414771_j81527069213369_2_alg».proof.Proof.Gen.Kernel
import proofs.«414771_j81527069213369_2_alg».proof.Proof.Gen.Kernel.Skeleton
import proofs.«414771_j81527069213369_2_alg».proof.Proof.Gen.Kernel.Launch
import proofs.«414771_j81527069213369_2_alg».proof.Proof.Gen.Kernel.Points
import proofs.«414771_j81527069213369_2_alg».proof.Proof.Gen.Kernel.Frame
import proofs.«414771_j81527069213369_2_alg».proof.Proof.Gen.KernelIdeal
import proofs.«414771_j81527069213369_2_alg».proof.Proof.Gen.KernelIdeal.Skeleton
import proofs.«414771_j81527069213369_2_alg».proof.Proof.Gen.KernelIdeal.Launch
import proofs.«414771_j81527069213369_2_alg».proof.Proof.Gen.KernelIdeal.Points
import proofs.«414771_j81527069213369_2_alg».proof.Proof.Gen.KernelIdeal.Frame
import proofs.«414771_j81527069213369_2_alg».proof.Proof.Gen.ReferenceIdeal
import proofs.«414771_j81527069213369_2_alg».proof.Proof.Gen.Pre_finite_inputs
import proofs.«414771_j81527069213369_2_alg».proof.Proof.PreFacts
import proofs.«414771_j81527069213369_2_alg».proof.Proof.KernelValue
import proofs.«414771_j81527069213369_2_alg».proof.Proof.RefRun
import proofs.«414771_j81527069213369_2_alg».proof.Proof.RefPix
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.StagedRun.run (F := Ideal) m ρ)

theorem preserves : Cert.preserves_Kernel_KernelIdeal := trivial

/-- Both runs end at the loss of the launched logits and labels: the kernel's by its frame run read block by block
    and through the host's sums, the reference's by its last stage read pixel by pixel, under what the precondition
    says of the inputs. -/
theorem algebraic : Cert.algebraic_KernelIdeal_ReferenceIdeal := by
  intro m ρ m' ρ' hpre hagree
  refine ⟨fun c => (fun _ => Cert.Spec.loss (Cert.KernelIdeal.Hand.X m c) (Cert.KernelIdeal.Hand.T m c)),
    Cert.KernelIdeal.Hand.run_value m ρ, ?_⟩
  refine (θ_run Cert.ReferenceIdeal.defs _ _).mono (fun _ h c => ⟨(h c).1.trans ?_, (h c).2⟩)
    (Cert.ReferenceIdeal.StagedRun.run (F := Ideal) m' ρ')
  rw [(hagree c).1, (hagree c).2]
  obtain ⟨hX, hT⟩ := Cert.PreFacts.of_pre _ _ (hpre c)
  funext i
  rw [eq_ix0 i]
  exact Cert.ReferenceIdeal.Pix.val_main_v38_eq_loss _ _ hX hT

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
